-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S1000000x16 : Shape := ⟨2, ![1000000, 16]⟩
abbrev S1000000 : Shape := ⟨1, ![1000000]⟩
abbrev S32x64 : Shape := ⟨2, ![32, 64]⟩
abbrev S64 : Shape := ⟨1, ![64]⟩
abbrev S16x64 : Shape := ⟨2, ![16, 64]⟩
abbrev S192x64 : Shape := ⟨2, ![192, 64]⟩
abbrev S128x64 : Shape := ⟨2, ![128, 64]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S192x64 : S_.BroadcastsInDim S192x64 (![] : Fin 0 → Fin S192x64.rank)
  reducesTo_S192x64_S_d0_1 : S192x64.ReducesTo [0, 1] S_
  bcast_S_S128x64 : S_.BroadcastsInDim S128x64 (![] : Fin 0 → Fin S128x64.rank)
  reducesTo_S128x64_S_d0_1 : S128x64.ReducesTo [0, 1] S_
  bcast_S_S1000000 : S_.BroadcastsInDim S1000000 (![] : Fin 0 → Fin S1000000.rank)
  reducesTo_S1000000_S_d0 : S1000000.ReducesTo [0] S_

variable [Facts]

def fn_part3 {F : FTy → Type} [FloatOps F] (main_arg2 : IVec S1000000 32) (main_v48 : IVec S_ 1) (main_v50 : IVec S1000000 1) : IVec S_ 1 :=
  let main_c_19 : IVec S_ 1 := constantI S_ 1 1#1
  let main_v51 : IVec S_ 1 := (fun x v => Host.reduce IntOp.andi x v reducesTo_S1000000_S_d0 h_S_) main_v50 main_c_19
  let main_v52 : IVec S_ 1 := andi main_v48 main_v51
  let main_c_20 : IVec S_ 32 := constantI S_ 32 50000#32
  let main_v53 : IVec S1000000 32 := broadcastInDim S1000000 ![] bcast_S_S1000000 main_c_20
  let main_v54 : IVec S1000000 1 := cmpi .slt main_arg2 main_v53
  let main_c_21 : IVec S_ 1 := constantI S_ 1 1#1
  let main_v55 : IVec S_ 1 := (fun x v => Host.reduce IntOp.andi x v reducesTo_S1000000_S_d0 h_S_) main_v54 main_c_21
  let main_v56 : IVec S_ 1 := andi main_v52 main_v55
  main_v56

def fn_part2 {F : FTy → Type} [FloatOps F] (main_arg2 : IVec S1000000 32) (main_arg9 : FVec F S64 .f32) (main_arg10 : FVec F S128x64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S1000000 32 := broadcastInDim S1000000 ![] bcast_S_S1000000 main_c_18
  let main_v50 : IVec S1000000 1 := cmpi .sge main_arg2 main_v49
  fn_part3 (F := F) main_arg2 main_v48 main_v50

def fn_part1 {F : FTy → Type} [FloatOps F] (main_arg2 : IVec S1000000 32) (main_arg6 : FVec F S16x64 .f32) (main_arg7 : FVec F S64 .f32) (main_arg8 : FVec F S192x64 .f32) (main_arg9 : FVec F S64 .f32) (main_arg10 : FVec F S128x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg6
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg8
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg2 main_arg9 main_arg10 main_arg11 main_v33

def fn {F : FTy → Type} [FloatOps F] (main_arg0 : FVec F S50000x32 .f32) (main_arg1 : FVec F S1000000x16 .f32) (main_arg2 : IVec S1000000 32) (main_arg3 : IVec S1000000 32) (main_arg4 : FVec F S32x64 .f32) (main_arg5 : FVec F S64 .f32) (main_arg6 : FVec F S16x64 .f32) (main_arg7 : FVec F S64 .f32) (main_arg8 : FVec F S192x64 .f32) (main_arg9 : FVec F S64 .f32) (main_arg10 : FVec F S128x64 .f32) (main_arg11 : FVec F S64 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1000000x16 .f32 := Host.absf main_arg1
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_arg8 main_arg9 main_arg10 main_arg11 main_v13 main_v16
-- ==== Kernel.lean ====
abbrev S50000x32 : Shape := ⟨2, ![50000, 32]⟩
abbrev S1000000x16 : Shape := ⟨2, ![1000000, 16]⟩
abbrev S1000000 : Shape := ⟨1, ![1000000]⟩
abbrev S32x64 : Shape := ⟨2, ![32, 64]⟩
abbrev S64 : Shape := ⟨1, ![64]⟩
abbrev S16x64 : Shape := ⟨2, ![16, 64]⟩
abbrev S192x64 : Shape := ⟨2, ![192, 64]⟩
abbrev S128x64 : Shape := ⟨2, ![128, 64]⟩
abbrev S50000x64 : Shape := ⟨2, ![50000, 64]⟩
abbrev S10000x32 : Shape := ⟨2, ![10000, 32]⟩
abbrev S10000x64 : Shape := ⟨2, ![10000, 64]⟩
abbrev S1x64 : Shape := ⟨2, ![1, 64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S5000x16 : Shape := ⟨2, ![5000, 16]⟩
abbrev S5000x64 : Shape := ⟨2, ![5000, 64]⟩
abbrev S64x64 : Shape := ⟨2, ![64, 64]⟩
abbrev S50000x96 : Shape := ⟨2, ![50000, 96]⟩

abbrev nBuf : Space → Nat
  | .hbm => 66
  | .vmem => 26
  | .smem => 0
  | _ => 0

abbrev bufTy : (tb : Table) → Fin (tcTables nBuf tb) → BufTy
  | .hbm, ⟨0, _⟩ => ⟨S50000x32, .f32⟩
  | .hbm, ⟨1, _⟩ => ⟨S1000000x16, .f32⟩
  | .hbm, ⟨2, _⟩ => ⟨S1000000, .i32⟩
  | .hbm, ⟨3, _⟩ => ⟨S1000000, .i32⟩
  | .hbm, ⟨4, _⟩ => ⟨S32x64, .f32⟩
  | .hbm, ⟨5, _⟩ => ⟨S64, .f32⟩
  | .hbm, ⟨6, _⟩ => ⟨S16x64, .f32⟩
  | .hbm, ⟨7, _⟩ => ⟨S64, .f32⟩
  | .hbm, ⟨8, _⟩ => ⟨S192x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S50000x64, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1, .i32⟩
  | .hbm, ⟨22, _⟩ => ⟨S_, .i32⟩
  | .hbm, ⟨23, _⟩ => ⟨S1000000x1, .i32⟩
  | .hbm, ⟨24, _⟩ => ⟨S1000000x1, .i1⟩
  | .hbm, ⟨25, _⟩ => ⟨S1x1, .i32⟩
  | .hbm, ⟨26, _⟩ => ⟨S1000000x1, .i32⟩
  | .hbm, ⟨27, _⟩ => ⟨S1000000x1, .i1⟩
  | .hbm, ⟨28, _⟩ => ⟨S1000000x1, .i1⟩
  | .hbm, ⟨29, _⟩ => ⟨S_, .i1⟩
  | .hbm, ⟨30, _⟩ => ⟨S1000000, .i1⟩
  | .hbm, ⟨31, _⟩ => ⟨S1000000x64, .f32⟩
  | .hbm, ⟨32, _⟩ => ⟨S1000000x64, .i1⟩
  | .hbm, ⟨33, _⟩ => ⟨S_, .f32⟩
  | .hbm, ⟨34, _⟩ => ⟨S1000000x64, .f32⟩
  | .hbm, ⟨35, _⟩ => ⟨S1000000x64, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1, .i32⟩
  | .hbm, ⟨45, _⟩ => ⟨S_, .i32⟩
  | .hbm, ⟨46, _⟩ => ⟨S1000000x1, .i32⟩
  | .hbm, ⟨47, _⟩ => ⟨S1000000x1, .i1⟩
  | .hbm, ⟨48, _⟩ => ⟨S1x1, .i32⟩
  | .hbm, ⟨49, _⟩ => ⟨S1000000x1, .i32⟩
  | .hbm, ⟨50, _⟩ => ⟨S1000000x1, .i1⟩
  | .hbm, ⟨51, _⟩ => ⟨S1000000x1, .i1⟩
  | .hbm, ⟨52, _⟩ => ⟨S_, .i1⟩
  | .hbm, ⟨53, _⟩ => ⟨S1000000, .i1⟩
  | .hbm, ⟨54, _⟩ => ⟨S1000000x64, .f32⟩
  | .hbm, ⟨55, _⟩ => ⟨S1000000x64, .i1⟩
  | .hbm, ⟨56, _⟩ => ⟨S_, .f32⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S_, .f32⟩
  | .hbm, ⟨61, _⟩ => ⟨S50000x64, .f32⟩
  | .hbm, ⟨62, _⟩ => ⟨S1000000x1, .i32⟩
  | .hbm, ⟨63, _⟩ => ⟨S50000x64, .f32⟩
  | .hbm, ⟨64, _⟩ => ⟨S50000x64, .f32⟩
  | .hbm, ⟨65, _⟩ => ⟨S50000x96, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S5000x16, .f32⟩
  | .local _ .vmem, ⟨7, _⟩ => ⟨S5000x16, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S16x64, .f32⟩
  | .local _ .vmem, ⟨13, _⟩ => ⟨S64, .f32⟩
  | .local _ .vmem, ⟨14, _⟩ => ⟨S192x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S128x64, .f32⟩
  | .local _ .vmem, ⟨23, _⟩ => ⟨S64, .f32⟩
  | .local _ .vmem, ⟨24, _⟩ => ⟨S10000x64, .f32⟩
  | .local _ .vmem, ⟨25, _⟩ => ⟨S10000x64, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v1 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v2 : Ref sig .tc := ⟨.hbm, 58, rfl⟩
abbrev main_v3 : Ref sig .tc := ⟨.hbm, 59, rfl⟩
abbrev main_cst : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S192x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  inb_S5000x16_S5000x16_0_0 : ∀ a, (![0, 0] : Fin 2 → Nat) a + S5000x16.size a ≤ S5000x16.size a
  h_S5000x16 : 0 < S5000x16.numel
  inb_S16x64_S16x64_0_0 : ∀ a, (![0, 0] : Fin 2 → Nat) a + S16x64.size a ≤ S16x64.size a
  h_S16x64 : 0 < S16x64.numel
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S192x64_S192x64_0_0 : ∀ a, (![0, 0] : Fin 2 → Nat) a + S192x64.size a ≤ S192x64.size a
  h_S192x64 : 0 < S192x64.numel
  slices_S192x64_o0_0_S64x64 : S192x64.Slices ![0, 0] S64x64
  slices_S192x64_o64_0_S64x64 : S192x64.Slices ![64, 0] S64x64
  slices_S192x64_o128_0_S64x64 : S192x64.Slices ![128, 0] S64x64
  bcast_S_S50000x64 : S_.BroadcastsInDim S50000x64 (![] : Fin 0 → Fin S50000x64.rank)
  shapeCasts_S10000x64_S10000x64 : S10000x64.ShapeCasts S10000x64
  inb_S128x64_S128x64_0_0 : ∀ a, (![0, 0] : Fin 2 → Nat) a + S128x64.size a ≤ S128x64.size a
  h_S128x64 : 0 < S128x64.numel
  slices_S128x64_o0_0_S64x64 : S128x64.Slices ![0, 0] S64x64
  slices_S128x64_o64_0_S64x64 : S128x64.Slices ![64, 0] S64x64
  concatenates_S50000x32_S50000x64_S50000x96_d1 : Shape.Concatenates [S50000x32, S50000x64] S50000x96 1
  dot_S10000x32_S32x64_S10000x64_1_0_0_1_n_n_wf : DotDims.WF S10000x32 S32x64 S10000x64 [1] [0] [0] [1] [] []
  gather_S50000x64_S1000000x1_S1000000x64_1_0_n_n_0_1_164_wf : GatherDims.WF S50000x64 S1000000x1 S1000000x64 [1] [0] [] [0] [] 1 ![1, 64]
  dot_S5000x16_S16x64_S5000x64_1_0_0_1_n_n_wf : DotDims.WF S5000x16 S16x64 S5000x64 [1] [0] [0] [1] [] []
  dot_S5000x64_S64x64_S5000x64_1_0_0_1_n_n_wf : DotDims.WF S5000x64 S64x64 S5000x64 [1] [0] [0] [1] [] []
  scatter_S50000x64_S1000000x1_S1000000x64_1_0_0_1_wf : ScatterDims.WF S50000x64 S1000000x1 S1000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S50000x32.size a
  hwx0_0 : ∀ i : grid0.Coords, EltTy.bits .f32 = 32 ∨ (Rect.block (s := S50000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S1000000x16.size a
  hwx1_0 : ∀ i : grid1.Coords, EltTy.bits .f32 = 32 ∨ (Rect.block (s := S1000000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1000000x64.size a
  hwx1_1 : ∀ i : grid1.Coords, EltTy.bits .f32 = 32 ∨ (Rect.block (s := S1000000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S1000000x64.size a
  hwx1_2 : ∀ i : grid1.Coords, EltTy.bits .f32 = 32 ∨ (Rect.block (s := S1000000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S192x64.size a ≤ S192x64.size a
  hwx1_5 : ∀ i : grid1.Coords, EltTy.bits .f32 = 32 ∨ (Rect.block (s := S192x64) S192x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S1000000x64.size a
  hwx1_7 : ∀ i : grid1.Coords, EltTy.bits .f32 = 32 ∨ (Rect.block (s := S1000000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S50000x64.size a
  hwx2_4 : ∀ i : grid2.Coords, EltTy.bits .f32 = 32 ∨ (Rect.block (s := S50000x64) S10000x64.size (cc2_transform_4 i) (hinb2_4 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S192x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v6) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x32 : Shape := ⟨2, ![50000, 32]⟩
abbrev S1000000x16 : Shape := ⟨2, ![1000000, 16]⟩
abbrev S1000000 : Shape := ⟨1, ![1000000]⟩
abbrev S32x64 : Shape := ⟨2, ![32, 64]⟩
abbrev S64 : Shape := ⟨1, ![64]⟩
abbrev S16x64 : Shape := ⟨2, ![16, 64]⟩
abbrev S192x64 : Shape := ⟨2, ![192, 64]⟩
abbrev S128x64 : Shape := ⟨2, ![128, 64]⟩
abbrev S50000x64 : Shape := ⟨2, ![50000, 64]⟩
abbrev S1x64 : Shape := ⟨2, ![1, 64]⟩
abbrev S_ : Shape := ⟨0, ![]⟩
abbrev S1000000x64 : Shape := ⟨2, ![1000000, 64]⟩
abbrev S1000000x1 : Shape := ⟨2, ![1000000, 1]⟩
abbrev S1000000x192 : Shape := ⟨2, ![1000000, 192]⟩
abbrev S50000x128 : Shape := ⟨2, ![50000, 128]⟩
abbrev S50000x96 : Shape := ⟨2, ![50000, 96]⟩

abbrev nBuf : Space → Nat
  | .hbm => 89
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S1000000x16, .f32⟩
  | .hbm, ⟨2, _⟩ => ⟨S1000000, .i32⟩
  | .hbm, ⟨3, _⟩ => ⟨S1000000, .i32⟩
  | .hbm, ⟨4, _⟩ => ⟨S32x64, .f32⟩
  | .hbm, ⟨5, _⟩ => ⟨S64, .f32⟩
  | .hbm, ⟨6, _⟩ => ⟨S16x64, .f32⟩
  | .hbm, ⟨7, _⟩ => ⟨S64, .f32⟩
  | .hbm, ⟨8, _⟩ => ⟨S192x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | .hbm, ⟨24, _⟩ => ⟨S50000x64, .f32⟩
  | .hbm, ⟨25, _⟩ => ⟨S1000000x64, .f32⟩
  | .hbm, ⟨26, _⟩ => ⟨S1x64, .f32⟩
  | .hbm, ⟨27, _⟩ => ⟨S1000000x64, .f32⟩
  | .hbm, ⟨28, _⟩ => ⟨S1000000x64, .f32⟩
  | .hbm, ⟨29, _⟩ => ⟨S1000000x64, .f32⟩
  | .hbm, ⟨30, _⟩ => ⟨S1000000x64, .f32⟩
  | .hbm, ⟨31, _⟩ => ⟨S_, .f32⟩
  | .hbm, ⟨32, _⟩ => ⟨S1000000x64, .f32⟩
  | .hbm, ⟨33, _⟩ => ⟨S1000000x64, .f32⟩
  | .hbm, ⟨34, _⟩ => ⟨S_, .f32⟩
  | .hbm, ⟨35, _⟩ => ⟨S1000000x64, .f32⟩
  | .hbm, ⟨36, _⟩ => ⟨S1000000x64, .f32⟩
  | .hbm, ⟨37, _⟩ => ⟨S1000000x64, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000x64, .f32⟩
  | .hbm, ⟨56, _⟩ => ⟨S1000000x192, .f32⟩
  | .hbm, ⟨57, _⟩ => ⟨S1000000x64, .f32⟩
  | .hbm, ⟨58, _⟩ => ⟨S1x64, .f32⟩
  | .hbm, ⟨59, _⟩ => ⟨S1000000x64, .f32⟩
  | .hbm, ⟨60, _⟩ => ⟨S1000000x64, .f32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S1000000x64, .f32⟩
  | .hbm, ⟨65, _⟩ => ⟨S1000000x64, .f32⟩
  | .hbm, ⟨66, _⟩ => ⟨S_, .f32⟩
  | .hbm, ⟨67, _⟩ => ⟨S1000000x64, .f32⟩
  | .hbm, ⟨68, _⟩ => ⟨S1000000x64, .f32⟩
  | .hbm, ⟨69, _⟩ => ⟨S1000000x64, .f32⟩
  | .hbm, ⟨70, _⟩ => ⟨S_, .f32⟩
  | .hbm, ⟨71, _⟩ => ⟨S50000x64, .f32⟩
  | .hbm, ⟨72, _⟩ => ⟨S1000000x1, .i32⟩
  | .hbm, ⟨73, _⟩ => ⟨S50000x64, .f32⟩
  | .hbm, ⟨74, _⟩ => ⟨S50000x128, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S_, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S50000x96, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v9 : Ref sig .tc := ⟨.hbm, 37, rfl⟩
abbrev main_c : Ref sig .tc := ⟨.hbm, 38, rfl⟩
abbrev main_v10 : Ref sig .tc := ⟨.hbm, 39, rfl⟩
abbrev main_v11 : Ref sig .tc := ⟨.hbm, 40, rfl⟩
abbrev main_c_0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_1 : Ref sig .tc := ⟨.hbm, 47, rfl⟩
abbrev main_v17 : Ref sig .tc := ⟨.hbm, 48, rfl⟩
abbrev main_v18 : Ref sig .tc := ⟨.hbm, 49, rfl⟩
abbrev main_c_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v29 : Ref sig .tc := ⟨.hbm, 69, rfl⟩
abbrev main_cst : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v38 : Ref sig .tc := ⟨.hbm, 87, rfl⟩
abbrev main_v39 : Ref sig .tc := ⟨.hbm, 88, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x192_d1 : Shape.Concatenates [S1000000x64, S1000000x64, S1000000x64] S1000000x192 1
  concatenates_S50000x64_S50000x64_S50000x128_d1 : Shape.Concatenates [S50000x64, S50000x64] S50000x128 1
  concatenates_S50000x32_S50000x64_S50000x96_d1 : Shape.Concatenates [S50000x32, S50000x64] S50000x96 1
  dot_S50000x32_S32x64_S50000x64_1_0_0_1_n_n_wf : DotDims.WF S50000x32 S32x64 S50000x64 [1] [0] [0] [1] [] []
  dot_S1000000x16_S16x64_S1000000x64_1_0_0_1_n_n_wf : DotDims.WF S1000000x16 S16x64 S1000000x64 [1] [0] [0] [1] [] []
  gather_S50000x64_S1000000x1_S1000000x64_1_0_n_n_0_1_164_wf : GatherDims.WF S50000x64 S1000000x1 S1000000x64 [1] [0] [] [0] [] 1 ![1, 64]
  dot_S1000000x192_S192x64_S1000000x64_1_0_0_1_n_n_wf : DotDims.WF S1000000x192 S192x64 S1000000x64 [1] [0] [0] [1] [] []
  scatter_S50000x64_S1000000x1_S1000000x64_1_0_0_1_wf : ScatterDims.WF S50000x64 S1000000x1 S1000000x64 [1] [0] [0] 1
  dot_S50000x128_S128x64_S50000x64_1_0_0_1_n_n_wf : DotDims.WF S50000x128 S128x64 S50000x64 [1] [0] [0] [1] [] []

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibHostRun.lean ====
/-
  A general fact about a host operation over three operand buffers.

  The contents after a line of host operations are a fold: each operation's results written over the contents before
  it. An operation over a literal family of THREE operand buffers (a concatenation of three arrays) has its result, at
  its own buffer, equal to its function of the three operands' contents each read at its own buffer, rather than
  through the family under a binder, so that the operands' contents can go on being rewritten. The library states this
  for four operands; this is the same statement for three.
-/
import Idealize.ShloMosaic.Lib.StableHlo.Run

noncomputable section

namespace Cert.LibHostRun

open Idealize.ShloMosaic Idealize.ShloMosaic.StableHlo

variable {τ : Topo} {sig : RefSig} {Val : EltTy → Type}

/-- An operation over a literal family of three operand buffers x, a, b writing y: its result at y is its function of
    the three operands' contents, each at its own buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibHostRun

end
-- ==== Proof.RefRun.lean ====
/-
  The reference program's run, read back stretch by stretch.

  The reference is 77 host operations in a row: the node embedding, the edge embedding, the two row gathers, their
  concatenation with the edge embedding, the edge update, its sum into receiver rows, the concatenation of that with
  the node embedding, the node update, and the concatenation of the node features with the result. Every weakly fair
  execution terminates with each buffer at the operations' results folded from the launch contents. This module
  computes that fold at the result buffer. The list is cut at its three concatenates. Within a stretch the results
  compute in one pass; what a stretch takes over from before it (a concatenate's buffer, argument buffers) enters as
  hypotheses on the contents it starts from, and leaves as a stage of the reference (the stage functions are the
  reference's operations composed, one definition per buffer). A concatenate's own result joins two stretches: its
  operands are the stages already computed, and the joined contents are the next stage by definition. The swish
  function calls carry their buffers with the type of the tensor value they hold; moving contents to a buffer's own
  type and back is the identity.
-/
import proofs.«420068_j49409303773498_2_alg».proof.Proof.RefOps
import proofs.«420068_j49409303773498_2_alg».proof.Proof.RefRead

set_option maxRecDepth 8192

noncomputable section

namespace Cert.Net.RefRun

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

/-! ## A call's buffers read at their tensor type -/

/-- Contents moved to a buffer's type and back are themselves. -/
theorem ofBuf_toBuf {T : BufTy} (x : TRef sig T) (v : T.Contents (Elt F)) : x.ofBuf (x.toBuf v) = v := by
  unfold TRef.ofBuf TRef.toBuf
  rw [cast_cast, cast_eq]
theorem ofBuf_v3 (v : BufTy.Contents (Elt F) (Ref.ty (main_v3 : Ref sig .tc))) :
    TRef.ofBuf (Val := Elt F) (TRef.of (T := ⟨S50000x64, .f32⟩) main_v3) v = (v : (⟨S50000x64, .f32⟩ : BufTy).Contents (Elt F)) := rfl
theorem toBuf_v4 (v : (⟨S50000x64, .f32⟩ : BufTy).Contents (Elt F)) :
    TRef.toBuf (Val := Elt F) (TRef.of (T := ⟨S50000x64, .f32⟩) main_v4) v = (v : BufTy.Contents (Elt F) (Ref.ty (main_v4 : Ref sig .tc))) := rfl
theorem ofBuf_v8 (v : BufTy.Contents (Elt F) (Ref.ty (main_v8 : Ref sig .tc))) :
    TRef.ofBuf (Val := Elt F) (TRef.of (T := ⟨S1000000x64, .f32⟩) main_v8) v = (v : (⟨S1000000x64, .f32⟩ : BufTy).Contents (Elt F)) := rfl
theorem toBuf_v9 (v : (⟨S1000000x64, .f32⟩ : BufTy).Contents (Elt F)) :
    TRef.toBuf (Val := Elt F) (TRef.of (T := ⟨S1000000x64, .f32⟩) main_v9) v = (v : BufTy.Contents (Elt F) (Ref.ty (main_v9 : Ref sig .tc))) := rfl
theorem ofBuf_v28 (v : BufTy.Contents (Elt F) (Ref.ty (main_v28 : Ref sig .tc))) :
    TRef.ofBuf (Val := Elt F) (TRef.of (T := ⟨S1000000x64, .f32⟩) main_v28) v = (v : (⟨S1000000x64, .f32⟩ : BufTy).Contents (Elt F)) := rfl
theorem toBuf_v29 (v : (⟨S1000000x64, .f32⟩ : BufTy).Contents (Elt F)) :
    TRef.toBuf (Val := Elt F) (TRef.of (T := ⟨S1000000x64, .f32⟩) main_v29) v = (v : BufTy.Contents (Elt F) (Ref.ty (main_v29 : Ref sig .tc))) := rfl
theorem ofBuf_v37 (v : BufTy.Contents (Elt F) (Ref.ty (main_v37 : Ref sig .tc))) :
    TRef.ofBuf (Val := Elt F) (TRef.of (T := ⟨S50000x64, .f32⟩) main_v37) v = (v : (⟨S50000x64, .f32⟩ : BufTy).Contents (Elt F)) := rfl
theorem toBuf_v38 (v : (⟨S50000x64, .f32⟩ : BufTy).Contents (Elt F)) :
    TRef.toBuf (Val := Elt F) (TRef.of (T := ⟨S50000x64, .f32⟩) main_v38) v = (v : BufTy.Contents (Elt F) (Ref.ty (main_v38 : Ref sig .tc))) := rfl

/-! ## Buffers a stretch does not write -/

theorem keepA_arg0 (V : Valuation τ sig (Elt F)) : after opsA V (Proc.devRef .tc main_arg0) = V (Proc.devRef .tc main_arg0) := by
  after_results_simp
theorem keepA_arg3 (V : Valuation τ sig (Elt F)) : after opsA V (Proc.devRef .tc main_arg3) = V (Proc.devRef .tc main_arg3) := by
  after_results_simp
theorem keepA_arg8 (V : Valuation τ sig (Elt F)) : after opsA V (Proc.devRef .tc main_arg8) = V (Proc.devRef .tc main_arg8) := by
  after_results_simp
theorem keepA_arg9 (V : Valuation τ sig (Elt F)) : after opsA V (Proc.devRef .tc main_arg9) = V (Proc.devRef .tc main_arg9) := by
  after_results_simp
theorem keepA_arg10 (V : Valuation τ sig (Elt F)) : after opsA V (Proc.devRef .tc main_arg10) = V (Proc.devRef .tc main_arg10) := by
  after_results_simp
theorem keepA_arg11 (V : Valuation τ sig (Elt F)) : after opsA V (Proc.devRef .tc main_arg11) = V (Proc.devRef .tc main_arg11) := by
  after_results_simp
theorem keepB_v4 (V : Valuation τ sig (Elt F)) : after opsB V (Proc.devRef .tc main_v4) = V (Proc.devRef .tc main_v4) := by
  after_results_simp
theorem keepB_arg0 (V : Valuation τ sig (Elt F)) : after opsB V (Proc.devRef .tc main_arg0) = V (Proc.devRef .tc main_arg0) := by
  after_results_simp
theorem keepB_arg10 (V : Valuation τ sig (Elt F)) : after opsB V (Proc.devRef .tc main_arg10) = V (Proc.devRef .tc main_arg10) := by
  after_results_simp
theorem keepB_arg11 (V : Valuation τ sig (Elt F)) : after opsB V (Proc.devRef .tc main_arg11) = V (Proc.devRef .tc main_arg11) := by
  after_results_simp
theorem keepC_arg0 (V : Valuation τ sig (Elt F)) : after opsC V (Proc.devRef .tc main_arg0) = V (Proc.devRef .tc main_arg0) := by
  after_results_simp

/-! ## The stretches, from contents V that hold the arguments x0 … x11 -/

section Stretches

variable (V : Valuation τ sig (Elt F)) (x0 : (⟨S50000x32, .f32⟩ : BufTy).Contents (Elt F)) (x1 : (⟨S1000000x16, .f32⟩ : BufTy).Contents (Elt F)) (x2 : (⟨S1000000, .i32⟩ : BufTy).Contents (Elt F)) (x3 : (⟨S1000000, .i32⟩ : BufTy).Contents (Elt F)) (x4 : (⟨S32x64, .f32⟩ : BufTy).Contents (Elt F)) (x5 : (⟨S64, .f32⟩ : BufTy).Contents (Elt F)) (x6 : (⟨S16x64, .f32⟩ : BufTy).Contents (Elt F)) (x7 : (⟨S64, .f32⟩ : BufTy).Contents (Elt F)) (x8 : (⟨S192x64, .f32⟩ : BufTy).Contents (Elt F)) (x9 : (⟨S64, .f32⟩ : BufTy).Contents (Elt F)) (x10 : (⟨S128x64, .f32⟩ : BufTy).Contents (Elt F)) (x11 : (⟨S64, .f32⟩ : BufTy).Contents (Elt F))

set_option maxHeartbeats 4000000 in
/-- The node embedding after the first stretch. -/
theorem stage_v4 (h0 : V (Proc.devRef .tc main_arg0) = x0) (h4 : V (Proc.devRef .tc main_arg4) = x4) (h5 : V (Proc.devRef .tc main_arg5) = x5) :
    after opsA V (Proc.devRef .tc main_v4) = val_main_v4 (F := F) x0 x4 x5 := by
  after_results_simp
  simp only [ofBuf_toBuf, ofBuf_v3, toBuf_v4]
  rw [h0, h4, h5]
  rfl

set_option maxHeartbeats 4000000 in
/-- The edge embedding after the first stretch. -/
theorem stage_v9 (h1 : V (Proc.devRef .tc main_arg1) = x1) (h6 : V (Proc.devRef .tc main_arg6) = x6) (h7 : V (Proc.devRef .tc main_arg7) = x7) :
    after opsA V (Proc.devRef .tc main_v9) = val_main_v9 (F := F) x1 x6 x7 := by
  after_results_simp
  simp only [ofBuf_toBuf, ofBuf_v8, toBuf_v9]
  rw [h1, h6, h7]
  rfl

set_option maxHeartbeats 4000000 in
/-- The receiver rows after the first stretch. -/
theorem stage_v16 (h0 : V (Proc.devRef .tc main_arg0) = x0) (h3 : V (Proc.devRef .tc main_arg3) = x3) (h4 : V (Proc.devRef .tc main_arg4) = x4) (h5 : V (Proc.devRef .tc main_arg5) = x5) :
    after opsA V (Proc.devRef .tc main_v16) = val_main_v16 (F := F) x0 x3 x4 x5 := by
  after_results_simp
  simp only [ofBuf_toBuf, ofBuf_v3, toBuf_v4]
  rw [h0, h3, h4, h5]
  rfl

set_option maxHeartbeats 4000000 in
/-- The sender rows after the first stretch. -/
theorem stage_v23 (h0 : V (Proc.devRef .tc main_arg0) = x0) (h2 : V (Proc.devRef .tc main_arg2) = x2) (h4 : V (Proc.devRef .tc main_arg4) = x4) (h5 : V (Proc.devRef .tc main_arg5) = x5) :
    after opsA V (Proc.devRef .tc main_v23) = val_main_v23 (F := F) x0 x2 x4 x5 := by
  after_results_simp
  simp only [ofBuf_toBuf, ofBuf_v3, toBuf_v4]
  rw [h0, h2, h4, h5]
  rfl

set_option maxHeartbeats 4000000 in
/-- The aggregated messages after the second stretch, from contents that hold the concatenated edge inputs. -/
theorem stage_v32 (h24 : V (Proc.devRef .tc main_v24) = val_main_v24 (F := F) x0 x1 x2 x3 x4 x5 x6 x7) (h3 : V (Proc.devRef .tc main_arg3) = x3) (h8 : V (Proc.devRef .tc main_arg8) = x8) (h9 : V (Proc.devRef .tc main_arg9) = x9) :
    after opsB V (Proc.devRef .tc main_v32) = val_main_v32 (F := F) x0 x1 x2 x3 x4 x5 x6 x7 x8 x9 := by
  after_results_simp
  simp only [ofBuf_toBuf, ofBuf_v28, toBuf_v29]
  rw [h24, h3, h8, h9]
  rfl

set_option maxHeartbeats 4000000 in
/-- The updated nodes after the third stretch, from contents that hold the concatenated node inputs. -/
theorem stage_v38 (h33 : V (Proc.devRef .tc main_v33) = val_main_v33 (F := F) x0 x1 x2 x3 x4 x5 x6 x7 x8 x9) (h10 : V (Proc.devRef .tc main_arg10) = x10) (h11 : V (Proc.devRef .tc main_arg11) = x11) :
    after opsC V (Proc.devRef .tc main_v38) = val_main_v38 (F := F) x0 x1 x2 x3 x4 x5 x6 x7 x8 x9 x10 x11 := by
  after_results_simp
  simp only [ofBuf_toBuf, ofBuf_v37, toBuf_v38]
  rw [h33, h10, h11]
  rfl

/-- The result buffer after all the operations, from contents that hold the arguments: the reference's last stage. -/
theorem result_of_args (h0 : V (Proc.devRef .tc main_arg0) = x0) (h1 : V (Proc.devRef .tc main_arg1) = x1) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) (h10 : V (Proc.devRef .tc main_arg10) = x10) (h11 : V (Proc.devRef .tc main_arg11) = x11) :
    after ops V (Proc.devRef .tc main_v39) = val_main_v39 (F := F) x0 x1 x2 x3 x4 x5 x6 x7 x8 x9 x10 x11 := by
  rw [ops_split, after_append, after_cons, after_append, after_cons, after_append, after_cons, after_nil]
  -- after the first stretch
  have a0 := (keepA_arg0 V).trans h0
  have a3 := (keepA_arg3 V).trans h3
  have a8 := (keepA_arg8 V).trans h8
  have a9 := (keepA_arg9 V).trans h9
  have a10 := (keepA_arg10 V).trans h10
  have a11 := (keepA_arg11 V).trans h11
  have s4 := stage_v4 V x0 x4 x5 h0 h4 h5
  have s9 := stage_v9 V x1 x6 x7 h1 h6 h7
  have s16 := stage_v16 V x0 x3 x4 x5 h0 h3 h4 h5
  have s23 := stage_v23 V x0 x2 x4 x5 h0 h2 h4 h5
  -- across the three-operand concatenate
  have b24 : (opN24 (F := F)).result (after opsA V) (Proc.devRef .tc main_v24) = val_main_v24 (F := F) x0 x1 x2 x3 x4 x5 x6 x7 := by
    rw [opN24_at, s9, s16, s23]
    rfl
  have b0 := (opN24_ne (after opsA V) (r := main_arg0) (by decide)).trans a0
  have b3 := (opN24_ne (after opsA V) (r := main_arg3) (by decide)).trans a3
  have b8 := (opN24_ne (after opsA V) (r := main_arg8) (by decide)).trans a8
  have b9 := (opN24_ne (after opsA V) (r := main_arg9) (by decide)).trans a9
  have b10 := (opN24_ne (after opsA V) (r := main_arg10) (by decide)).trans a10
  have b11 := (opN24_ne (after opsA V) (r := main_arg11) (by decide)).trans a11
  have b4 := (opN24_ne (after opsA V) (r := main_v4) (by decide)).trans s4
  -- after the second stretch
  have c32 := stage_v32 ((opN24 (F := F)).result (after opsA V)) x0 x1 x2 x3 x4 x5 x6 x7 x8 x9 b24 b3 b8 b9
  have c4 := (keepB_v4 ((opN24 (F := F)).result (after opsA V))).trans b4
  have c0 := (keepB_arg0 ((opN24 (F := F)).result (after opsA V))).trans b0
  have c10 := (keepB_arg10 ((opN24 (F := F)).result (after opsA V))).trans b10
  have c11 := (keepB_arg11 ((opN24 (F := F)).result (after opsA V))).trans b11
  -- across the two-operand concatenate
  have d33 : (opN33 (F := F)).result (after opsB ((opN24 (F := F)).result (after opsA V))) (Proc.devRef .tc main_v33)
      = val_main_v33 (F := F) x0 x1 x2 x3 x4 x5 x6 x7 x8 x9 := by
    rw [opN33_at, c32, c4]
    rfl
  have d0 := (opN33_ne (after opsB ((opN24 (F := F)).result (after opsA V))) (r := main_arg0) (by decide)).trans c0
  have d10 := (opN33_ne (after opsB ((opN24 (F := F)).result (after opsA V))) (r := main_arg10) (by decide)).trans c10
  have d11 := (opN33_ne (after opsB ((opN24 (F := F)).result (after opsA V))) (r := main_arg11) (by decide)).trans c11
  -- after the third stretch, and the last operation
  have e38 := stage_v38 ((opN33 (F := F)).result (after opsB ((opN24 (F := F)).result (after opsA V)))) x0 x1 x2 x3 x4 x5 x6 x7 x8 x9 x10 x11 d33 d10 d11
  have e0 := (keepC_arg0 ((opN33 (F := F)).result (after opsB ((opN24 (F := F)).result (after opsA V))))).trans d0
  rw [opN39_at, e0, e38]
  rfl

end Stretches

/-! ## The run -/

set_option maxHeartbeats 30800000 in
/-- On every device, from any memory with zero counters: every weakly fair execution of the reference terminates with
    the result buffer at the reference's last stage of the launched arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v39).trans
      (result_of_args (launchContents m c) _ _ _ _ _ _ _ _ _ _ _ _ rfl rfl rfl rfl rfl rfl rfl rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.Net.RefRun

end
-- ==== Proof.KernelFold.lean ====
/-
  The idealized kernel program's buffers, read back through the run.

  The program is: the node embedding (region 0); two row selections from it, one by the receiver indices and one by
  the sender indices (host operations); the edge update (region 1); the sum of the updated edge rows into their
  receiver rows (a host scatter-add); the node update (region 2); and the concatenation of the node features with the
  updated nodes (a host operation). The frame module names the buffer contents at each boundary between these
  segments (W0 at launch, W7 at the return). This module reads each buffer a later segment consumes: a buffer a host
  stretch wrote is that stretch's operations applied to the contents before it; a region's output array is what the
  region's write-backs leave; every other buffer is what it was one boundary earlier.

  The row selection is the chain of operations jnp.take with mode "fill" lowers to: a negative index is wrapped by
  adding the number of rows (50000); the row of the table at the wrapped index is gathered, the gather clamping the
  index into the table; and a row whose wrapped index is outside [0, 49999] is replaced by zeros.
-/
import proofs.«420068_j49409303773498_2_alg».proof.Proof.Gen.KernelIdeal.Frame
import Idealize.ShloMosaic.Lib.StableHlo.Run

set_option maxRecDepth 16384

noncomputable section

namespace Cert.Net.KFold

open Cert.KernelIdeal Cert.KernelIdeal.Gen Idealize.ShloMosaic Idealize.ShloMosaic.TcCoe Idealize.SL.Sem Idealize.ShloMosaic.StableHlo

variable {F : FTy → Type} [FloatOps F]

/-! ## The row selection as one function -/

/-- The index column the gather reads: each index, wrapped by 50000 when negative, as a 1000000 × 1 column. -/
def wrapIdx (idx : IVec S1000000 32) : IVec S1000000x1 32 :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 50000#32))) idx)

/-- Row by row: is the wrapped index inside [0, 49999]? -/
def rowOk (w : IVec S1000000x1 32) : IVec S1000000 1 :=
  Host.reduce IntOp.andi
    (andi (cmpi .sge w (broadcastInDim S1000000x1 ![] bcast_S_S1000000x1 (constantI S_ 32 0#32)))
      (cmpi .sle w (broadcastInDim S1000000x1 ![0, 1] bcast_S1x1_S1000000x1_0_1
        (broadcastInDim S1x1 ![1] bcast_S1_S1x1_1 (constantI S1 32 49999#32)))))
    (constantI S_ 1 1#1) reducesTo_S1000000x1_S1000000_d1 h_S_

/-- The selected rows: the gathered row where the wrapped index is in range, a row of zeros elsewhere. -/
def takeFill (H : FVec F S50000x64 .f32) (idx : IVec S1000000 32) : FVec F S1000000x64 .f32 :=
  select (broadcastInDim S1000000x64 ![0] bcast_S1000000_S1000000x64_0 (rowOk (wrapIdx idx)))
    (Host.gather gather_S50000x64_S1000000x1_S1000000x64_1_0_n_n_0_1_164 H (wrapIdx idx))
    (broadcastInDim S1000000x64 ![] bcast_S_S1000000x64 (constant S_ .f32 0x00000000#32))

/-- The sum of update rows into the rows their indices name, from zeros (an index outside the table drops its row). -/
def scatterRows (idx : IVec S1000000 32) (U : FVec F S1000000x64 .f32) : FVec F S50000x64 .f32 :=
  Host.scatterAdd scatter_S50000x64_S1000000x1_S1000000x64_1_0_0_1
    (broadcastInDim S50000x64 ![] bcast_S_S50000x64 (constant S_ .f32 0x00000000#32))
    (broadcastInDim S1000000x1 ![0] bcast_S1000000_S1000000x1_0 idx) U

/-- The node features beside the updated nodes, 50000 × 96. -/
def joinOut (X : FVec F S50000x32 .f32) (Y : FVec F S50000x64 .f32) : FVec F S50000x96 .f32 :=
  concatenate S50000x96 1 [⟨S50000x32, X⟩, ⟨S50000x64, Y⟩] concatenates_S50000x32_S50000x64_S50000x96_d1

/-! ## Reading a buffer at its tensor type

A function call's operations carry their buffers with the type of the tensor value they hold; moving contents between
that type and the buffer's own is the identity, since the two types are the same. -/

/-- Contents moved to a buffer's type and back are themselves. -/
theorem ofBuf_toBuf {T : BufTy} (x : TRef sig T) (v : T.Contents (Elt F)) : x.ofBuf (x.toBuf v) = v := by
  unfold TRef.ofBuf TRef.toBuf
  rw [cast_cast, cast_eq]

/-- The receiver indices' buffer read at its tensor type. -/
theorem ofBuf_arg3 (v : BufTy.Contents (Elt F) (Ref.ty (main_arg3 : Ref sig .tc))) :
    TRef.ofBuf (Val := Elt F) (TRef.of (T := ⟨S1000000, .i32⟩) main_arg3) v = (v : (⟨S1000000, .i32⟩ : BufTy).Contents (Elt F)) := rfl
/-- The sender indices' buffer read at its tensor type. -/
theorem ofBuf_arg2 (v : BufTy.Contents (Elt F) (Ref.ty (main_arg2 : Ref sig .tc))) :
    TRef.ofBuf (Val := Elt F) (TRef.of (T := ⟨S1000000, .i32⟩) main_arg2) v = (v : (⟨S1000000, .i32⟩ : BufTy).Contents (Elt F)) := rfl
/-- The node embedding's buffer read at its tensor type. -/
theorem ofBuf_v0 (v : BufTy.Contents (Elt F) (Ref.ty (main_v0 : Ref sig .tc))) :
    TRef.ofBuf (Val := Elt F) (TRef.of (T := ⟨S50000x64, .f32⟩) main_v0) v = (v : (⟨S50000x64, .f32⟩ : BufTy).Contents (Elt F)) := rfl
/-- A value written to the receiver rows' buffer. -/
theorem toBuf_v1 (v : (⟨S1000000x64, .f32⟩ : BufTy).Contents (Elt F)) :
    TRef.toBuf (Val := Elt F) (TRef.of (T := ⟨S1000000x64, .f32⟩) main_v1) v = (v : BufTy.Contents (Elt F) (Ref.ty (main_v1 : Ref sig .tc))) := rfl
/-- A value written to the sender rows' buffer. -/
theorem toBuf_v2 (v : (⟨S1000000x64, .f32⟩ : BufTy).Contents (Elt F)) :
    TRef.toBuf (Val := Elt F) (TRef.of (T := ⟨S1000000x64, .f32⟩) main_v2) v = (v : BufTy.Contents (Elt F) (Ref.ty (main_v2 : Ref sig .tc))) := rfl

variable (m : (ℓ : Loc nD τ sig) → Buf (Elt F) ℓ) (ρ : Dev nD → PrngReg)

/-! ## Buffers a host stretch wrote -/

/-- The receiver rows: the first row selection applied to the node embedding and the receiver indices as they stand
    after region 0. -/
theorem recvRows_eq (c : Dev nD) :
    W2 m ρ c (Proc.devRef .tc main_v1)
      = takeFill (W1 m ρ c (Proc.devRef .tc main_v0)) (W1 m ρ c (Proc.devRef .tc main_arg3)) := by
  show StableHlo.after hostOps1 (W1 m ρ c) (Proc.devRef .tc main_v1) = _
  after_results_simp
  simp only [ofBuf_toBuf, ofBuf_arg3, ofBuf_v0, toBuf_v1]
  rfl

/-- The sender rows: the second row selection, applied to what stands before it. -/
theorem sendRows_eq (c : Dev nD) :
    W3 m ρ c (Proc.devRef .tc main_v2)
      = takeFill (W2 m ρ c (Proc.devRef .tc main_v0)) (W2 m ρ c (Proc.devRef .tc main_arg2)) := by
  show StableHlo.after hostOps1_1 (W2 m ρ c) (Proc.devRef .tc main_v2) = _
  after_results_simp
  simp only [ofBuf_toBuf, ofBuf_arg2, ofBuf_v0, toBuf_v2]
  rfl

/-- The aggregated messages: the updated edge rows summed into their receiver rows. -/
theorem agg_eq (c : Dev nD) :
    W5 m ρ c (Proc.devRef .tc main_v6)
      = scatterRows (W4 m ρ c (Proc.devRef .tc main_arg3)) (W4 m ρ c (Proc.devRef .tc main_v3)) := by
  show StableHlo.after hostOps2 (W4 m ρ c) (Proc.devRef .tc main_v6) = _
  after_results
  rfl

/-- The result: the node features beside region 2's output. -/
theorem out_eq (c : Dev nD) :
    W7 m ρ c (Proc.devRef .tc main_v8)
      = joinOut (W6 m ρ c (Proc.devRef .tc main_arg0)) (W6 m ρ c (Proc.devRef .tc main_v7)) := by
  show StableHlo.after hostOps3 (W6 m ρ c) (Proc.devRef .tc main_v8) = _
  after_results
  rfl

/-! ## Buffers carried unchanged across boundaries -/

/-- No host operation and no region up to this boundary writes this argument: it is as launched. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- No host operation and no region up to this boundary writes this argument: it is as launched. -/
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := W1_of_ne m ρ c main_arg10 (by decide)
    _ = m ((c : Thread nD τ).loc main_arg10) := rfl

/-- No host operation and no region up to this boundary writes this argument: it is as launched. -/
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := W1_of_ne m ρ c main_arg11 (by decide)
    _ = m ((c : Thread nD τ).loc main_arg11) := rfl

/-- No host operation and no region up to this boundary writes this argument: it is as launched. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

/-- No host operation and no region up to this boundary writes this argument: it is as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

/-- No host operation and no region up to this boundary writes this argument: it is as launched. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl

/-- No host operation and no region up to this boundary writes this argument: it is as launched. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := W1_of_ne m ρ c main_arg7 (by decide)
    _ = m ((c : Thread nD τ).loc main_arg7) := rfl

/-- No host operation and no region up to this boundary writes this argument: it is as launched. -/
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl

/-- No host operation and no region up to this boundary writes this argument: it is as launched. -/
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = m ((c : Thread nD τ).loc main_arg9) := rfl

/-- No host operation and no region up to this boundary writes this argument: it is as launched. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- No host operation and no region up to this boundary writes this argument: it is as launched. -/
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := W1_of_ne m ρ c main_arg3 (by decide)
    _ = m ((c : Thread nD τ).loc main_arg3) := rfl

/-- The node embedding is written by region 0 only: at region 2's entry it is what region 0 left. -/
theorem W5_main_v0 (c : Dev nD) : W5 m ρ c (Proc.devRef .tc main_v0) = W1 m ρ c (Proc.devRef .tc main_v0) :=
  calc W5 m ρ c (Proc.devRef .tc main_v0)
    _ = W4 m ρ c (Proc.devRef .tc main_v0) := StableHlo.after_of_forall_not_mem (b := Proc.devRef .tc main_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0) := W4_of_ne m ρ c main_v0 (by decide)
    _ = W2 m ρ c (Proc.devRef .tc main_v0) := StableHlo.after_of_forall_not_mem (b := Proc.devRef .tc main_v0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first row selection does not write the node embedding. -/
theorem W2_main_v0 (c : Dev nD) : W2 m ρ c (Proc.devRef .tc main_v0) = W1 m ρ c (Proc.devRef .tc main_v0) :=
  calc W2 m ρ c (Proc.devRef .tc main_v0)
    _ = W1 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second row selection does not write the receiver rows. -/
theorem W3_main_v1 (c : Dev nD) : W3 m ρ c (Proc.devRef .tc main_v1) = W2 m ρ c (Proc.devRef .tc main_v1) :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.Net.KFold

end
-- ==== Proof.Spec.lean ====
/-
  The three dense stages of one message-passing step, as functions on the extended reals, entry by entry.

  Every stage is an affine map followed by swish, swish x = x · σ(x) with σ(x) = 1 / (1 + e^(-x)):
    node embedding   h[n, j]  = swish (Σ_k X[n, k] · W[k, j] + b[j])                         k < 32
    edge embedding   g[e, j]  = swish (Σ_k Ed[e, k] · W[k, j] + b[j])                        k < 16
    edge update      u[e, j]  = swish (Σ_k g[e, k] · We[k, j] + Σ_k R[e, k] · We[64 + k, j]
                                        + Σ_k S[e, k] · We[128 + k, j] + be[j])             k < 64
    node update      v[n, j]  = swish (Σ_k A[n, k] · Wn[k, j] + Σ_k H[n, k] · Wn[64 + k, j] + bn[j])   k < 64
  The edge update multiplies the concatenated row [g | R | S] (192 entries) by the 192 × 64 weights; the sum over the
  192 columns is written here as its three consecutive runs of 64, added left to right. Likewise the node update's
  128 columns are two runs of 64. Addition on the extended reals is commutative and associative, so the grouping is
  only a choice of spelling; no distributivity is used anywhere.
-/
import Idealize.ShloMosaic.PureOps.Ideal
import Idealize.ShloMosaic.Lib.ValueIdx

noncomputable section

namespace Cert.Net

open Idealize.ShloMosaic Idealize.ShloMosaic.ValueIdx

/-- A matrix of extended reals with r rows and c columns. -/
abbrev Mat (r c : Nat) : Type := (⟨2, ![r, c]⟩ : Shape).Idx → EReal
/-- A vector of extended reals with n entries. -/
abbrev Row (n : Nat) : Type := (⟨1, ![n]⟩ : Shape).Idx → EReal

/-- swish x = x · σ(x), σ the logistic function. -/
def swish (x : EReal) : EReal := x * Ideal.logistic x

/-- Row o + k of a matrix with 192 rows, for k < 64 and a run starting at row o. -/
def row192 (o : Nat) (h : o + 64 ≤ 192) (k : Fin 64) : Fin 192 := ⟨o + k.val, by have := k.isLt; omega⟩
/-- Row o + k of a matrix with 128 rows, for k < 64 and a run starting at row o. -/
def row128 (o : Nat) (h : o + 64 ≤ 128) (k : Fin 64) : Fin 128 := ⟨o + k.val, by have := k.isLt; omega⟩

/-- Entry (n, j) of the node embedding. -/
def embedNodeAt (X : Mat 50000 32) (W : Mat 32 64) (b : Row 64) (n : Fin 50000) (j : Fin 64) : EReal :=
  swish ((∑ k : Fin 32, X (ix2 n k) * W (ix2 k j)) + b (ix1 j))

/-- The node embedding, 50000 × 64. -/
def embedNode (X : Mat 50000 32) (W : Mat 32 64) (b : Row 64) : Mat 50000 64 :=
  fun i => embedNodeAt X W b (i 0) (i 1)

/-- Entry (e, j) of the edge embedding. -/
def embedEdgeAt (Ed : Mat 1000000 16) (W : Mat 16 64) (b : Row 64) (e : Fin 1000000) (j : Fin 64) : EReal :=
  swish ((∑ k : Fin 16, Ed (ix2 e k) * W (ix2 k j)) + b (ix1 j))

/-- Entry (e, j) of the edge update from the edge features, the receiver rows R and the sender rows S. -/
def edgeUpdateAt (Ed : Mat 1000000 16) (R S : Mat 1000000 64) (Wm : Mat 16 64) (bm : Row 64) (We : Mat 192 64)
    (be : Row 64) (e : Fin 1000000) (j : Fin 64) : EReal :=
  swish ((((∑ k : Fin 64, embedEdgeAt Ed Wm bm e k * We (ix2 (row192 0 (by omega) k) j))
            + ∑ k : Fin 64, R (ix2 e k) * We (ix2 (row192 64 (by omega) k) j))
            + ∑ k : Fin 64, S (ix2 e k) * We (ix2 (row192 128 (by omega) k) j))
          + be (ix1 j))

/-- The edge update, 1000000 × 64. -/
def edgeUpdate (Ed : Mat 1000000 16) (R S : Mat 1000000 64) (Wm : Mat 16 64) (bm : Row 64) (We : Mat 192 64)
    (be : Row 64) : Mat 1000000 64 :=
  fun i => edgeUpdateAt Ed R S Wm bm We be (i 0) (i 1)

/-- Entry (n, j) of the node update from the aggregated messages A and the node embedding H. -/
def nodeUpdateAt (A H : Mat 50000 64) (Wn : Mat 128 64) (bn : Row 64) (n : Fin 50000) (j : Fin 64) : EReal :=
  swish (((∑ k : Fin 64, A (ix2 n k) * Wn (ix2 (row128 0 (by omega) k) j))
            + ∑ k : Fin 64, H (ix2 n k) * Wn (ix2 (row128 64 (by omega) k) j))
          + bn (ix1 j))

/-- The node update, 50000 × 64. -/
def nodeUpdate (A H : Mat 50000 64) (Wn : Mat 128 64) (bn : Row 64) : Mat 50000 64 :=
  fun i => nodeUpdateAt A H Wn bn (i 0) (i 1)

theorem embedNode_ix2 (X : Mat 50000 32) (W : Mat 32 64) (b : Row 64) (n : Fin 50000) (j : Fin 64) :
    embedNode X W b (ix2 n j) = embedNodeAt X W b n j := rfl

theorem edgeUpdate_ix2 (Ed : Mat 1000000 16) (R S : Mat 1000000 64) (Wm : Mat 16 64) (bm : Row 64) (We : Mat 192 64)
    (be : Row 64) (e : Fin 1000000) (j : Fin 64) :
    edgeUpdate Ed R S Wm bm We be (ix2 e j) = edgeUpdateAt Ed R S Wm bm We be e j := rfl

theorem nodeUpdate_ix2 (A H : Mat 50000 64) (Wn : Mat 128 64) (bn : Row 64) (n : Fin 50000) (j : Fin 64) :
    nodeUpdate A H Wn bn (ix2 n j) = nodeUpdateAt A H Wn bn n j := rfl

/-- The edge update at row e depends on R and S only through their rows e. -/
theorem edgeUpdateAt_congr (Ed : Mat 1000000 16) (R S R' S' : Mat 1000000 64) (Wm : Mat 16 64) (bm : Row 64)
    (We : Mat 192 64) (be : Row 64) (e : Fin 1000000) (j : Fin 64)
    (hR : ∀ k : Fin 64, R (ix2 e k) = R' (ix2 e k)) (hS : ∀ k : Fin 64, S (ix2 e k) = S' (ix2 e k)) :
    edgeUpdateAt Ed R S Wm bm We be e j = edgeUpdateAt Ed R' S' Wm bm We be e j := by
  unfold edgeUpdateAt
  simp only [hR, hS]

end Cert.Net

end
-- ==== Proof.Region0.lean ====
/-
  Region 0, the node embedding, as one function of the arrays it reads.

  The region runs over five grid points. Point t reads rows 10000 t … 10000 t + 9999 of the 50000 × 32 node features,
  the whole 32 × 64 weight matrix and the whole bias of 64 entries, and writes rows 10000 t … 10000 t + 9999 of the
  50000 × 64 result: entry (p, q) of its block is swish (Σ_{k < 32} X[10000 t + p, k] · W[k, q] + b[q]). The five row
  blocks tile the result, so after the region the result array is the node embedding h[n, j] entry by entry.
-/
import proofs.«420068_j49409303773498_2_alg».proof.Proof.Gen.KernelIdeal.Frame
import proofs.«420068_j49409303773498_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Net.Region0

open Idealize.ShloMosaic Idealize.ShloMosaic.TcCoe Idealize.ShloMosaic.ValueIdx Idealize.SL.Sem
open Idealize.ShloMosaic.Pipeline (Dat)
open Cert.KernelIdeal Cert.KernelIdeal.Gen

/-! ## The one contraction of the node embedding: rows of the node block against columns of the weights -/

/-- The left operand's row coordinate is the result's row. -/
theorem lhs_dot_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
/-- The left operand's column coordinate is the summation index. -/
theorem lhs_dot_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
/-- The right operand's row coordinate is the summation index. -/
theorem rhs_dot_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
/-- The right operand's column coordinate is the result's column. -/
theorem rhs_dot_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The product of a 10000 × 32 block with the 32 × 64 weights, accumulated from zero, at entry (p, q):
    the sum over k < 32 of block[p, k] · weights[k, q]. -/
theorem matmul_at (x : FVec Ideal S10000x32 .bf16) (w : FVec Ideal S32x64 .bf16) (p : Fin 10000) (q : Fin 64) :
    matmul dot_S10000x32_S32x64_S10000x64_1_0_0_1_n_n none x w (constant (F := Ideal) S10000x64 .f32 0x00000000#32) (ix2 p q)
      = ∑ k : Fin 32, x (ix2 p k) * w (ix2 k q) := by
  refine (Ideal.matmul_constant_zero_apply dot_S10000x32_S32x64_S10000x64_1_0_0_1_n_n none x w (ix2 p q)).trans ?_
  rw [← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k := funext fun a => Fin.ext (by
    match a with
    | ⟨0, _⟩ => exact lhs_dot_0 _ _
    | ⟨1, _⟩ => exact (lhs_dot_1 _ _).trans hk)
  have er : dot_S10000x32_S32x64_S10000x64_1_0_0_1_n_n.rhsIdx (ix2 p q) ((contrEquiv1 dot_S10000x32_S32x64_S10000x64_1_0_0_1_n_n 32 rfl rfl).symm k) = ix2 k q := funext fun a => Fin.ext (by
    match a with
    | ⟨0, _⟩ => exact (rhs_dot_0 _ _).trans hk
    | ⟨1, _⟩ => exact rhs_dot_1 _ _)
  rw [el, er]

/-! ## The body's payload, entry by entry -/

/-- Entry (p, q) of what the body stores: swish of the contraction of row p of the node block with column q of the
    weights, plus the bias at q. The narrowing to bf16 is the identity on extended reals, and the bias reaches its
    row through a unit axis and a row broadcast. -/
theorem payload_at (x : Vec Ideal S10000x32 .f32) (w : Vec Ideal S32x64 .f32) (b : Vec Ideal S64 .f32) (p : Fin 10000) (q : Fin 64) :
    k0_pay1 (F := Ideal) x w b (ix2 p q)
      = Cert.Net.swish ((∑ k : Fin 32, x (ix2 p k) * w (ix2 k q)) + b (ix1 q)) := by
  unfold k0_pay1
  rw [mulf_apply]
  show (addf _ _ (ix2 p q)) * FloatOps.logistic (addf _ _ (ix2 p q)) = _
  rw [addf_apply, matmul_at, broadcastTo_1b_ab_apply, shapeCast_a_1a_apply, Ideal.logistic_def]
  rfl

/-! ## Where each window's block sits in its array -/

theorem hz2 : (![0, 0] : Fin 2 → Nat) = fun _ => 0 := funext fun a => by fin_cases a <;> rfl
theorem hz1 : (![0] : Fin 1 → Nat) = fun _ => 0 := funext fun a => by fin_cases a <;> rfl

/-- The windows' index maps over the five grid points: point t takes row block t of the nodes and of the result, and
    the whole of the weights and of the bias. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section Blocks
variable (V : (c : Dev nD) → (b : Ref sig .tc) → Buf (Elt Ideal) ((c : Thread nD τ).loc b)) (c : Dev nD)

/-- Entry (p, k) of the node block at point t is entry (10000 t + p, k) of the node features. -/
theorem nodes_block (t : Fin cfg0.N) (p : Fin 10000) (k : Fin 32) (n : Fin 50000) (hn : n.val = t.val * 10000 + p.val) :
    (iblk0 (F := Ideal) V c 0 t : Vec Ideal S10000x32 .f32) (ix2 p k) = (V c main_arg0 : Cert.Net.Mat 50000 32) (ix2 n k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * p.val = n.val; rw [e0, hn]; omega
  | ⟨1, _⟩ => show win0_0.index t (1 : Fin 2) * 32 + 1 * k.val = k.val; rw [e1]; omega

/-- The weight block at every point is the whole 32 × 64 weight matrix. -/
theorem weights_block (t : Fin cfg0.N) (k : Fin 32) (q : Fin 64) :
    (iblk0 (F := Ideal) V c 1 t : Vec Ideal S32x64 .f32) (ix2 k q) = (V c main_arg4 : Cert.Net.Mat 32 64) (ix2 k q) := by
  obtain ⟨-, -, e2, e3, -⟩ := idx_facts t
  unfold iblk0
  rw [View.read_apply]
  show V c main_arg4 _ = V c main_arg4 _
  congr 1
  funext a
  apply Fin.ext
  match a with
  | ⟨0, _⟩ => show win0_1.index t (0 : Fin 2) * 32 + 1 * k.val = k.val; rw [e2]; omega
  | ⟨1, _⟩ => show win0_1.index t (1 : Fin 2) * 64 + 1 * q.val = q.val; rw [e3]; omega

/-- The bias block at every point is the whole bias vector. -/
theorem bias_block (t : Fin cfg0.N) (q : Fin 64) :
    (iblk0 (F := Ideal) V c 2 t : Vec Ideal S64 .f32) (ix1 q) = (V c main_arg5 : Cert.Net.Row 64) (ix1 q) := by
  obtain ⟨-, -, -, -, e4, -⟩ := idx_facts t
  unfold iblk0
  rw [View.read_apply]
  show V c main_arg5 _ = V c main_arg5 _
  congr 1
  funext a
  apply Fin.ext
  match a with
  | ⟨0, _⟩ => show win0_2.index t (0 : Fin 1) * 64 + 1 * q.val = q.val; rw [e4]; omega

/-! ## What a point writes back, and the whole array -/

/-- What point t writes back is block t of the node embedding of the arrays as the region finds them. -/
theorem flushed_eq (t : Fin cfg0.N) :
    (dat0 (F := Ideal) V c).flushed 3 t
      = ((cfg0.win 3).blk t).view.read (Elt Ideal) (Cert.Net.embedNode (V c main_arg0) (V c main_arg4) (V c main_arg5)) := by
  show (cfg0.win 3).cut (grid0.coords t) ((dat0 V c).after 3 t) = _
  rw [after0_3]
  unfold out0_3
  rw [View.canon_unit_zero hz2]
  simp only [View.ld_unit_zero (S := S10000x32) hz2, View.ld_unit_zero (S := S32x64) hz2, View.ld_unit_zero (S := S64) hz1]
  funext j
  have hp : (j 0).val < 10000 := (j 0).isLt
  have hq : (j 1).val < 64 := (j 1).isLt
  have hN : cfg0.N = 5 := N_0
  have ht : t.val < cfg0.N := t.isLt
  obtain ⟨-, -, -, -, -, e5, e6⟩ := idx_facts t
  have hn : t.val * 10000 + (j 0).val < 50000 := by omega
  refine Eq.trans (congrArg (k0_pay1 (F := Ideal) (iblk0 V c 0 t) (iblk0 V c 1 t) (iblk0 V c 2 t))
    (show (win0 3).xinj (grid0.coords t) j = ix2 (⟨(j 0).val, hp⟩ : Fin 10000) (⟨(j 1).val, hq⟩ : Fin 64) from
      funext fun a => by match a with | ⟨0, _⟩ => rfl | ⟨1, _⟩ => rfl)) ?_
  refine (payload_at _ _ _ _ _).trans ?_
  have hemb : ((cfg0.win 3).blk t).view.emb j = ix2 (⟨t.val * 10000 + (j 0).val, hn⟩ : Fin 50000) (⟨(j 1).val, hq⟩ : Fin 64) := by
    funext a
    apply Fin.ext
    match a with
    | ⟨0, _⟩ => show win0_3.index t (0 : Fin 2) * 10000 + 1 * (j 0).val = t.val * 10000 + (j 0).val; rw [e5]; omega
    | ⟨1, _⟩ => show win0_3.index t (1 : Fin 2) * 64 + 1 * (j 1).val = (j 1).val; rw [e6]; omega
  show _ = Cert.Net.embedNode (V c main_arg0) (V c main_arg4) (V c main_arg5) (((cfg0.win 3).blk t).view.emb j)
  rw [hemb, Cert.Net.embedNode_ix2]
  unfold Cert.Net.embedNodeAt
  refine congrArg Cert.Net.swish (congrArg₂ (· + ·) (Finset.sum_congr rfl fun k _ => ?_) (bias_block V c t _))
  exact congrArg₂ (· * ·) (nodes_block V c t _ k ⟨_, hn⟩ rfl) (weights_block V c t k _)

/-- An index of the result array is in point t's block iff each coordinate is in the block's range on its axis. -/
theorem mem_blk (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v0).slice (win0_3.rect t)).set ↔ _
  rw [View.set_slice_whole, Rect.mem_set_unit]
  exact Iff.rfl

/-- Row n of the result lies in the block of point n / 10000, and every point writes its block back. -/
theorem cover (i : S50000x64.Idx) : ∃ t : Fin cfg0.N, (cfg0.win 3).flush t = true ∧ i ∈ ((cfg0.win 3).blk t).view.set := by
  have hN : cfg0.N = 5 := N_0
  have hi0 : (i 0).val < 50000 := (i 0).isLt
  have hi1 : (i 1).val < 64 := (i 1).isLt
  have ht : (i 0).val / 10000 < cfg0.N := by rw [hN]; omega
  obtain ⟨-, -, -, -, -, e5, e6⟩ := idx_facts ⟨(i 0).val / 10000, ht⟩
  refine ⟨⟨(i 0).val / 10000, ht⟩, flush0_3 _, ?_⟩
  rw [mem_blk]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e5]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e6]; omega

end Blocks

/-- After region 0 the result array holds the node embedding of the node features, the weights and the bias as the
    region found them: every point writes back its row block of that one function, and the five blocks cover the array. -/
theorem node_embed_final (V : (c : Dev nD) → (b : Ref sig .tc) → Buf (Elt Ideal) ((c : Thread nD τ).loc b)) (c : Dev nD) :
    (dat0 (F := Ideal) V c).arrAt 3 cfg0.N = Cert.Net.embedNode (V c main_arg0) (V c main_arg4) (V c main_arg5) :=
  (dat0 (F := Ideal) V c).arrAt_eq_of_cover 3 _ (fun t _ => flushed_eq V c t) cover

end Cert.Net.Region0

end
-- ==== Proof.Region1.lean ====
/-
  Kernel region 1 (the edge update), as one whole-array function.

  The region runs over 200 grid points. At point t its body loads rows [5000 t, 5000 t + 5000) of the edge
  features, of the receiver rows and of the sender rows, and the whole of the two weight matrices and the two biases; it
  writes rows [5000 t, 5000 t + 5000) of the result. Read at an entry (p, q) of the block, what the body stores is
      swish (((g · W₀ + r · W₁) + s · W₂)[q] + be[q]),   g = swish (ed · Wm + bm),
  where ed, r, s are row p of the three loaded blocks and W₀, W₁, W₂ are the three consecutive 64-row runs of the
  192 × 64 weights: the edge update of ONE edge, which depends on that edge's rows only. Row p of a block at point t
  is row 5000 t + p of its array, so point t writes back its rows of the edge update of the arrays; the 200 blocks
  tile the 1000000 rows, so after the region the result array is the edge update, whole.
  At the ideal values the narrowing to bf16 before each product is the identity and a product into the zero block is
  the plain sum over the contracted index.
-/
import proofs.«420068_j49409303773498_2_alg».proof.Proof.Gen.KernelIdeal.Frame
import proofs.«420068_j49409303773498_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Net.Region1

open Cert.KernelIdeal Cert.KernelIdeal.Gen Idealize.ShloMosaic Idealize.ShloMosaic.TcCoe Idealize.SL.Sem Idealize.ShloMosaic.ValueIdx
open Idealize.ShloMosaic.Pipeline (Dat)

/-! ## The two contractions at an entry

Both products contract the left factor's columns with the right factor's rows; their operand indices at output entry
(p, q) and contraction index k are (p, k) and (k, q). -/

theorem lhs16_0 (i : S5000x64.Idx) (q : dot_S5000x16_S16x64_S5000x64_1_0_0_1_n_n.contr.Idx) :
    (dot_S5000x16_S16x64_S5000x64_1_0_0_1_n_n.lhsIdx i q 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl
theorem lhs16_1 (i : S5000x64.Idx) (q : dot_S5000x16_S16x64_S5000x64_1_0_0_1_n_n.contr.Idx) :
    (dot_S5000x16_S16x64_S5000x64_1_0_0_1_n_n.lhsIdx i q 1).val = (q ⟨0, by decide⟩).val :=
  dot_S5000x16_S16x64_S5000x64_1_0_0_1_n_n.lhsIdx_val_of_single rfl i q
theorem rhs16_0 (i : S5000x64.Idx) (q : dot_S5000x16_S16x64_S5000x64_1_0_0_1_n_n.contr.Idx) :
    (dot_S5000x16_S16x64_S5000x64_1_0_0_1_n_n.rhsIdx i q 0).val = (q ⟨0, by decide⟩).val :=
  dot_S5000x16_S16x64_S5000x64_1_0_0_1_n_n.rhsIdx_val_of_single rfl i q
theorem rhs16_1 (i : S5000x64.Idx) (q : dot_S5000x16_S16x64_S5000x64_1_0_0_1_n_n.contr.Idx) :
    (dot_S5000x16_S16x64_S5000x64_1_0_0_1_n_n.rhsIdx i q 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

theorem lhs64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 16 block times the 16 × 64 weights, at entry (p, q): the sum over the 16 columns. -/
theorem matmul16_apply (l : FVec Ideal S5000x16 .bf16) (r : FVec Ideal S16x64 .bf16) (p : Fin 5000) (q : Fin 64) :
    matmul dot_S5000x16_S16x64_S5000x64_1_0_0_1_n_n none l r (constant S5000x64 .f32 0x00000000#32) (ix2 p q)
      = ∑ k : Fin 16, l (ix2 p k) * r (ix2 k q) := by
  simp only [matmul]
  rw [Ideal.matmul_constant_zero_apply, ← Equiv.sum_comp (contrEquiv1 dot_S5000x16_S16x64_S5000x64_1_0_0_1_n_n 16 rfl rfl).symm]
  refine Finset.sum_congr rfl fun k _ => ?_
  have hk := contrEquiv1_symm_val dot_S5000x16_S16x64_S5000x64_1_0_0_1_n_n 16 rfl rfl k
  have el : dot_S5000x16_S16x64_S5000x64_1_0_0_1_n_n.lhsIdx (ix2 p q) ((contrEquiv1 dot_S5000x16_S16x64_S5000x64_1_0_0_1_n_n 16 rfl rfl).symm k) = ix2 p k := funext fun a => Fin.ext (by
    match a with
    | ⟨0, _⟩ => exact lhs16_0 _ _
    | ⟨1, _⟩ => exact (lhs16_1 _ _).trans hk)
  have er : dot_S5000x16_S16x64_S5000x64_1_0_0_1_n_n.rhsIdx (ix2 p q) ((contrEquiv1 dot_S5000x16_S16x64_S5000x64_1_0_0_1_n_n 16 rfl rfl).symm k) = ix2 k q := funext fun a => Fin.ext (by
    match a with
    | ⟨0, _⟩ => exact (rhs16_0 _ _).trans hk
    | ⟨1, _⟩ => exact rhs16_1 _ _)
  rw [el, er]

/-- A 5000 × 64 block times a 64 × 64 run of the weights, at entry (p, q): the sum over the 64 columns. -/
theorem matmul64_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ## The body's payload at an entry -/

/-- Entry j of the edge update of ONE edge, from that edge's 16 features, its receiver row and its sender row. -/
def updateRow (ed : Fin 16 → EReal) (r s : Fin 64 → EReal) (Wm : Mat 16 64) (bm : Row 64) (We : Mat 192 64) (be : Row 64)
    (j : Fin 64) : EReal :=
  swish ((((∑ k : Fin 64, swish ((∑ k' : Fin 16, ed k' * Wm (ix2 k' k)) + bm (ix1 k)) * We (ix2 (row192 0 (by omega) k) j))
            + ∑ k : Fin 64, r k * We (ix2 (row192 64 (by omega) k) j))
            + ∑ k : Fin 64, s k * We (ix2 (row192 128 (by omega) k) j))
          + be (ix1 j))

/-- The edge update's entry (e, j) is that of row e of each operand. -/
theorem edgeUpdateAt_eq_updateRow (Ed : Mat 1000000 16) (R S : Mat 1000000 64) (Wm : Mat 16 64) (bm : Row 64) (We : Mat 192 64)
    (be : Row 64) (e : Fin 1000000) (j : Fin 64) :
    edgeUpdateAt Ed R S Wm bm We be e j
      = updateRow (fun k => Ed (ix2 e k)) (fun k => R (ix2 e k)) (fun k => S (ix2 e k)) Wm bm We be j := rfl

/-- x · σ(x) of a block, at an entry. -/
theorem swish_apply (x : FVec Ideal S5000x64 .f32) (i : S5000x64.Idx) : mulf x (logistic x) i = swish (x i) := rfl

/-- A 64-vector laid along the rows of a 5000 × 64 block reads, at (p, q), its entry q. -/
theorem bias_apply (b : FVec Ideal S64 .f32) (h1 : S64.ShapeCasts S1x64) (h2 : S1x64.Broadcasts S5000x64) (p : Fin 5000) (q : Fin 64) :
    broadcastTo S5000x64 (shapeCast S1x64 b h1) h2 (ix2 p q) = b (ix1 q) :=
  (broadcastTo_1b_ab_apply _ h2 p q).trans (shapeCast_a_1a_apply b h1 0 q)

/-- The three 64-row runs of the 192 × 64 weights, at an entry. -/
theorem run0_apply (W : FVec Ideal S192x64 .f32) (h : S192x64.Slices ![0, 0] S64x64) (k q : Fin 64) :
    extractStridedSlice S64x64 ![0, 0] W h (ix2 k q) = W (ix2 (row192 0 (by omega) k) q) :=
  slice2_axis0_apply 0 W h k q _ rfl
theorem run64_apply (W : FVec Ideal S192x64 .f32) (h : S192x64.Slices ![64, 0] S64x64) (k q : Fin 64) :
    extractStridedSlice S64x64 ![64, 0] W h (ix2 k q) = W (ix2 (row192 64 (by omega) k) q) :=
  slice2_axis0_apply 64 W h k q _ rfl
theorem run128_apply (W : FVec Ideal S192x64 .f32) (h : S192x64.Slices ![128, 0] S64x64) (k q : Fin 64) :
    extractStridedSlice S64x64 ![128, 0] W h (ix2 k q) = W (ix2 (row192 128 (by omega) k) q) :=
  slice2_axis0_apply 128 W h k q _ rfl

/-- The body's payload at entry (p, q) of the block is the edge update of row p of the loaded blocks. -/
theorem payload_apply (v0 : Vec Ideal S5000x16 .f32) (v2 : Vec Ideal S16x64 .f32) (v5 : Vec Ideal S64 .f32)
    (v11 v14 : Vec Ideal S5000x64 .f32) (v17 : Vec Ideal S192x64 .f32) (v30 : Vec Ideal S64 .f32) (p : Fin 5000) (q : Fin 64) :
    k1_pay1 (F := Ideal) v0 v2 v5 v11 v14 v17 v30 (ix2 p q)
      = updateRow (fun k => v0 (ix2 p k)) (fun k => v11 (ix2 p k)) (fun k => v14 (ix2 p k)) v2 v5 v17 v30 q := by
  unfold k1_pay1 updateRow
  dsimp only
  simp only [swish_apply, addf_apply, bias_apply, matmul64_apply, matmul16_apply, truncf_apply, shapeCast_self,
    run0_apply, run64_apply, run128_apply]

/-! ## The grid: where each window's block sits -/

theorem hz2 : (![0, 0] : Fin 2 → Nat) = fun _ => 0 := funext fun a => by fin_cases a <;> rfl
theorem hz1 : (![0] : Fin 1 → Nat) = fun _ => 0 := funext fun a => by fin_cases a; rfl

/-- Decided over the 200 points: the edge, receiver, sender and result windows are at row block t, the weights and
    biases at their one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- Row p of the edge-feature block at point t is row 5000 t + p of the edge features. -/
theorem edges_block (c : Dev nD) (t : Fin cfg1.N) (p : Fin 5000) (k : Fin 16) (e : Fin 1000000)
    (he : e.val = t.val * 5000 + p.val) :
    iblk1 (F := Ideal) V c 0 t (ix2 p k) = V c main_arg1 (ix2 e k) := by
  obtain ⟨a0, a1, -⟩ := block_index t
  show V c main_arg1 (((cfg1.win 0).blk t).view.emb (ix2 p k)) = V c main_arg1 (ix2 e k)
  refine congrArg _ (funext fun a => Fin.ext ?_)
  match a with
  | ⟨0, _⟩ => show win1_0.index t (0 : Fin 2) * 5000 + 1 * p.val = e.val; omega
  | ⟨1, _⟩ => show win1_0.index t (1 : Fin 2) * 16 + 1 * k.val = k.val; omega

/-- Row p of the receiver block at point t is row 5000 t + p of the receiver rows. -/
theorem receivers_block (c : Dev nD) (t : Fin cfg1.N) (p : Fin 5000) (k : Fin 64) (e : Fin 1000000)
    (he : e.val = t.val * 5000 + p.val) :
    iblk1 (F := Ideal) V c 1 t (ix2 p k) = V c main_v1 (ix2 e k) := by
  obtain ⟨-, -, a0, a1, -⟩ := block_index t
  show V c main_v1 (((cfg1.win 1).blk t).view.emb (ix2 p k)) = V c main_v1 (ix2 e k)
  refine congrArg _ (funext fun a => Fin.ext ?_)
  match a with
  | ⟨0, _⟩ => show win1_1.index t (0 : Fin 2) * 5000 + 1 * p.val = e.val; omega
  | ⟨1, _⟩ => show win1_1.index t (1 : Fin 2) * 64 + 1 * k.val = k.val; omega

/-- Row p of the sender block at point t is row 5000 t + p of the sender rows. -/
theorem senders_block (c : Dev nD) (t : Fin cfg1.N) (p : Fin 5000) (k : Fin 64) (e : Fin 1000000)
    (he : e.val = t.val * 5000 + p.val) :
    iblk1 (F := Ideal) V c 2 t (ix2 p k) = V c main_v2 (ix2 e k) := by
  obtain ⟨-, -, -, -, a0, a1, -⟩ := block_index t
  show V c main_v2 (((cfg1.win 2).blk t).view.emb (ix2 p k)) = V c main_v2 (ix2 e k)
  refine congrArg _ (funext fun a => Fin.ext ?_)
  match a with
  | ⟨0, _⟩ => show win1_2.index t (0 : Fin 2) * 5000 + 1 * p.val = e.val; omega
  | ⟨1, _⟩ => show win1_2.index t (1 : Fin 2) * 64 + 1 * k.val = k.val; omega

/-- The 16 × 64 embedding weights are one block, the same at every point. -/
theorem embedWeights_block (c : Dev nD) (t : Fin cfg1.N) : iblk1 (F := Ideal) V c 3 t = V c main_arg6 := by
  obtain ⟨-, -, -, -, -, -, a0, a1, -⟩ := block_index t
  funext y
  show V c main_arg6 (((cfg1.win 3).blk t).view.emb y) = V c main_arg6 y
  refine congrArg _ (funext fun a => Fin.ext ?_)
  match a with
  | ⟨0, _⟩ => show win1_3.index t (0 : Fin 2) * 16 + 1 * (y 0).val = (y 0).val; omega
  | ⟨1, _⟩ => show win1_3.index t (1 : Fin 2) * 64 + 1 * (y 1).val = (y 1).val; omega

/-- The embedding bias is one block, the same at every point. -/
theorem embedBias_block (c : Dev nD) (t : Fin cfg1.N) : iblk1 (F := Ideal) V c 4 t = V c main_arg7 := by
  obtain ⟨-, -, -, -, -, -, -, -, a0, -⟩ := block_index t
  funext y
  show V c main_arg7 (((cfg1.win 4).blk t).view.emb y) = V c main_arg7 y
  refine congrArg _ (funext fun a => Fin.ext ?_)
  match a with
  | ⟨0, _⟩ => show win1_4.index t (0 : Fin 1) * 64 + 1 * (y 0).val = (y 0).val; omega

/-- The 192 × 64 update weights are one block, the same at every point. -/
theorem updateWeights_block (c : Dev nD) (t : Fin cfg1.N) : iblk1 (F := Ideal) V c 5 t = V c main_arg8 := by
  obtain ⟨-, -, -, -, -, -, -, -, -, a0, a1, -⟩ := block_index t
  funext y
  show V c main_arg8 (((cfg1.win 5).blk t).view.emb y) = V c main_arg8 y
  refine congrArg _ (funext fun a => Fin.ext ?_)
  match a with
  | ⟨0, _⟩ => show win1_5.index t (0 : Fin 2) * 192 + 1 * (y 0).val = (y 0).val; omega
  | ⟨1, _⟩ => show win1_5.index t (1 : Fin 2) * 64 + 1 * (y 1).val = (y 1).val; omega

/-- The update bias is one block, the same at every point. -/
theorem updateBias_block (c : Dev nD) (t : Fin cfg1.N) : iblk1 (F := Ideal) V c 6 t = V c main_arg9 := by
  obtain ⟨-, -, -, -, -, -, -, -, -, -, -, a0, -⟩ := block_index t
  funext y
  show V c main_arg9 (((cfg1.win 6).blk t).view.emb y) = V c main_arg9 y
  refine congrArg _ (funext fun a => Fin.ext ?_)
  match a with
  | ⟨0, _⟩ => show win1_6.index t (0 : Fin 1) * 64 + 1 * (y 0).val = (y 0).val; omega

/-! ## What a point writes back -/

/-- Point t writes back rows [5000 t, 5000 t + 5000) of the edge update of the arrays the region finds. -/
theorem flushed_eq (c : Dev nD) (t : Fin cfg1.N) :
    (dat1 (F := Ideal) V c).flushed 7 t = ((cfg1.win 7).blk t).view.read (Elt Ideal)
      (edgeUpdate (V c main_arg1) (V c main_v1) (V c main_v2) (V c main_arg6) (V c main_arg7) (V c main_arg8) (V c main_arg9)) := by
  show (cfg1.win 7).cut (grid1.coords t) ((dat1 V c).after 7 t) = _
  rw [after1_7]
  unfold out1_7
  rw [View.canon_unit_zero hz2]
  simp only [View.ld_unit_zero (S := S5000x16) hz2, View.ld_unit_zero (S := S16x64) hz2, View.ld_unit_zero (S := S64) hz1,
    View.ld_unit_zero (S := S5000x64) hz2, View.ld_unit_zero (S := S192x64) hz2]
  obtain ⟨-, -, -, -, -, -, -, -, -, -, -, -, a0, a1⟩ := block_index t
  have hN : cfg1.N = 200 := N_1
  have ht : t.val < cfg1.N := t.isLt
  funext j
  have hp : (j 0).val < 5000 := (j 0).isLt
  have hq : (j 1).val < 64 := (j 1).isLt
  have hj : (cfg1.win 7).xinj (grid1.coords t) j = ix2 (⟨(j 0).val, hp⟩ : Fin 5000) (⟨(j 1).val, hq⟩ : Fin 64) :=
    funext fun a => Fin.ext (by match a with | ⟨0, _⟩ => rfl | ⟨1, _⟩ => rfl)
  have hi : ((cfg1.win 7).blk t).view.emb j
      = ix2 (⟨t.val * 5000 + (j 0).val, by omega⟩ : Fin 1000000) (⟨(j 1).val, hq⟩ : Fin 64) :=
    funext fun a => Fin.ext (by
      match a with
      | ⟨0, _⟩ => show win1_7.index t (0 : Fin 2) * 5000 + 1 * (j 0).val = t.val * 5000 + (j 0).val; omega
      | ⟨1, _⟩ => show win1_7.index t (1 : Fin 2) * 64 + 1 * (j 1).val = (j 1).val; omega)
  show k1_pay1 (F := Ideal) _ _ _ _ _ _ _ ((cfg1.win 7).xinj (grid1.coords t) j)
    = edgeUpdate _ _ _ _ _ _ _ (((cfg1.win 7).blk t).view.emb j)
  rw [hj, hi, payload_apply, edgeUpdate_ix2, edgeUpdateAt_eq_updateRow,
    embedWeights_block, embedBias_block, updateWeights_block, updateBias_block]
  congr 1
  · exact funext fun k => edges_block V c t _ k _ rfl
  · exact funext fun k => receivers_block V c t _ k _ rfl
  · exact funext fun k => senders_block V c t _ k _ rfl

/-! ## The whole array -/

/-- An index of the result is in point t's block iff each coordinate is in the block's range on its axis. -/
theorem mem_blk (t : Fin cfg1.N) (i : S1000000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v3).slice (win1_7.rect t)).set ↔ _
  rw [View.set_slice_whole, Rect.mem_set_unit]
  exact Iff.rfl

/-- Row n of the result is written by point n / 5000. -/
theorem covered (i : S1000000x64.Idx) :
    ∃ t : Fin cfg1.N, (cfg1.win 7).flush t = true ∧ i ∈ ((cfg1.win 7).blk t).view.set := by
  have hN : cfg1.N = 200 := N_1
  have hi0 : (i 0).val < 1000000 := (i 0).isLt
  have hi1 : (i 1).val < 64 := (i 1).isLt
  obtain ⟨t, ht⟩ : ∃ t : Fin cfg1.N, t.val = (i 0).val / 5000 := ⟨⟨(i 0).val / 5000, by omega⟩, rfl⟩
  obtain ⟨-, -, -, -, -, -, -, -, -, -, -, -, a0, a1⟩ := block_index t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- After the region the result array is the edge update of the arrays the region found, whole. -/
theorem edge_block_final (c : Dev nD) :
    (dat1 (F := Ideal) V c).arrAt 7 cfg1.N
      = edgeUpdate (V c main_arg1) (V c main_v1) (V c main_v2) (V c main_arg6) (V c main_arg7) (V c main_arg8) (V c main_arg9) :=
  (dat1 V c).arrAt_eq_of_cover 7 _ (fun t _ => flushed_eq V c t) covered

end Cert.Net.Region1

end
-- ==== Proof.Region2.lean ====
/-
  The node-update region as one function of the arrays it reads.

  The region's grid has 5 points. At point t it stages rows 10000·t … 10000·t + 9999 of the aggregated messages A and
  of the node embedding H (both 50000 × 64), the whole 128 × 64 weights Wn and the whole 64-vector bn, and writes the
  same rows of its 50000 × 64 output. The body computes, for a staged row p and a column q,

      swish (Σ_k A[p, k] · Wn[k, q] + Σ_k H[p, k] · Wn[64 + k, q] + bn[q]),      k < 64,

  two products by the matrix unit into a zero accumulator (each the plain sum over the contracted index), against the
  first and the last 64 rows of the weights, added, the bias added to every row, then x · σ(x). The changes of float
  format in between are the identity on extended reals.

  Read at an index: the payload at (p, q) is that formula over the staged blocks (`payload_at`); each staged block
  entry is an entry of its array (row 10000·t + p for the row-blocked windows, the same entry for the whole ones);
  so what point t writes back is rows 10000·t … of `Cert.Net.nodeUpdate` of the arrays (`flushed_eq`); the five
  row blocks tile the 50000 rows, row n lying in block n / 10000, so after the region the output array is
  `Cert.Net.nodeUpdate` of the arrays as the region found them (`node_update_final`).
-/
import proofs.«420068_j49409303773498_2_alg».proof.Proof.Gen.KernelIdeal.Frame
import proofs.«420068_j49409303773498_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Net.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix unit's product at an index

The kernel multiplies a 10000 × 64 block by a 64 × 64 block, contracting the left operand's columns with the right
operand's rows. Read at (p, q) the product into the zero accumulator is Σ_k l[p, k] · r[k, q]. -/

/-- Left operand, axis 0: the result's row. -/
theorem lhs_rows (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Left operand, axis 1: the contracted index. -/
theorem lhs_contr (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- Right operand, axis 0: the contracted index. -/
theorem rhs_contr (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- Right operand, axis 1: the result's column. -/
theorem rhs_cols (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product into the zero accumulator, read at (p, q). -/
theorem product_at (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  show FloatOps.matmul dot_S10000x64_S64x64_S10000x64_1_0_0_1_n_n none l r (constant S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_rows _ _
    | ⟨1, _⟩ => exact (lhs_contr _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_contr _ _).trans hk
    | ⟨1, _⟩ => exact rhs_cols _ _)
  rw [el, er]

/-! ## The body's payload at an index -/

/-- A 64-row run of the 128 × 64 weights, starting at row o, read at (k, q) after the change of format (the
    identity on extended reals): the weights at (o + k, q). -/
theorem weights_run (o : Nat) (ho : o + 64 ≤ 128) (W : Vec Ideal S128x64 .f32) (h : S128x64.Slices ![o, 0] S64x64)
    (hb : FTy.bits .bf16 < FTy.bits .f32) (k q : Fin 64) :
    (truncf .bf16 (extractStridedSlice S64x64 ![o, 0] W h) hb : FVec Ideal S64x64 .bf16) (ix2 k q)
      = W (ix2 (Cert.Net.row128 o ho k) q) :=
  slice2_axis0_apply o W h k q (Cert.Net.row128 o ho k) rfl

/-- The bias, a 64-vector laid out as one row and repeated down the 10000 rows, read at (p, q): the bias at q. -/
theorem bias_rows (b : Vec Ideal S64 .f32) (h1 : S64.ShapeCasts S1x64) (h2 : S1x64.Broadcasts S10000x64)
    (p : Fin 10000) (q : Fin 64) :
    broadcastTo S10000x64 (shapeCast S1x64 b h1) h2 (ix2 p q) = b (ix1 q) := by
  rw [broadcastTo_1b_ab_apply, shapeCast_a_1a_apply]

/-- THE PAYLOAD AT (p, q): swish of (A-block row p times the first 64 weight rows, plus H-block row p times the
    last 64 weight rows, plus the bias), all at column q. -/
theorem payload_at (x0 x1 : Vec Ideal S10000x64 .f32) (x2 : Vec Ideal S128x64 .f32) (x3 : Vec Ideal S64 .f32)
    (p : Fin 10000) (q : Fin 64) :
    k2_pay1 (F := Ideal) x0 x1 x2 x3 (ix2 p q)
      = Cert.Net.swish (((∑ k : Fin 64, x0 (ix2 p k) * x2 (ix2 (Cert.Net.row128 0 (by omega) k) q))
            + ∑ k : Fin 64, x1 (ix2 p k) * x2 (ix2 (Cert.Net.row128 64 (by omega) k) q))
          + x3 (ix1 q)) := by
  unfold k2_pay1
  simp only [shapeCast_self]
  show Cert.Net.swish ((matmul (F := Ideal) dot_S10000x64_S64x64_S10000x64_1_0_0_1_n_n none _ _ (constant S10000x64 .f32 0x00000000#32) (ix2 p q)
      + matmul (F := Ideal) dot_S10000x64_S64x64_S10000x64_1_0_0_1_n_n none _ _ (constant S10000x64 .f32 0x00000000#32) (ix2 p q))
      + broadcastTo S10000x64 (shapeCast S1x64 x3 _) _ (ix2 p q)) = _
  rw [product_at, product_at, bias_rows]
  simp only [weights_run 0 (by omega), weights_run 64 (by omega), truncf_apply]

/-! ## From blocks to the array

The region runs over a grid of 5 points. At point t the two row-blocked inputs (the aggregated messages A and the
node embedding H) and the output stage rows 10000·t … 10000·t + 9999; the weights and the bias are staged whole. -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed index maps, decided over the grid: the row-blocked windows are at block (t, 0), the whole ones at
    block 0. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ t.val < 5 :=
  (by decide +kernel : ∀ t : Fin grid2.N, _)

/-- Every block of rows is some point's. -/
theorem point_of_block : ∀ b : Fin 5, ∃ t : Fin cfg2.N, t.val = b.val :=
  (by decide +kernel : ∀ b : Fin 5, ∃ t : Fin grid2.N, t.val = b.val)

/-- Block t of the aggregated messages, at (p, k): row 10000·t + p of the array. -/
theorem messages_block (c : Dev nD) (t : Fin cfg2.N) (p : Fin 10000) (k : Fin 64) (n : Fin 50000)
    (hn : n.val = t.val * 10000 + p.val) :
    (iblk2 (F := Ideal) V c 0 t : S10000x64.Idx → EReal) (ix2 p k) = (V c main_v6 : S50000x64.Idx → EReal) (ix2 n k) := by
  obtain ⟨e0, e1, -⟩ := block_indices t
  unfold iblk2
  rw [View.read_apply]
  show V c main_v6 _ = V c main_v6 _
  congr 1
  funext a
  apply Fin.ext
  match a with
  | ⟨0, _⟩ => show win2_0.index t (0 : Fin 2) * 10000 + 1 * p.val = n.val; omega
  | ⟨1, _⟩ => show win2_0.index t (1 : Fin 2) * 64 + 1 * k.val = k.val; omega

/-- Block t of the node embedding, at (p, k): row 10000·t + p of the array. -/
theorem embedding_block (c : Dev nD) (t : Fin cfg2.N) (p : Fin 10000) (k : Fin 64) (n : Fin 50000)
    (hn : n.val = t.val * 10000 + p.val) :
    (iblk2 (F := Ideal) V c 1 t : S10000x64.Idx → EReal) (ix2 p k) = (V c main_v0 : S50000x64.Idx → EReal) (ix2 n k) := by
  obtain ⟨-, -, e0, e1, -⟩ := block_indices t
  unfold iblk2
  rw [View.read_apply]
  show V c main_v0 _ = V c main_v0 _
  congr 1
  funext a
  apply Fin.ext
  match a with
  | ⟨0, _⟩ => show win2_1.index t (0 : Fin 2) * 10000 + 1 * p.val = n.val; omega
  | ⟨1, _⟩ => show win2_1.index t (1 : Fin 2) * 64 + 1 * k.val = k.val; omega

/-- The weights' block at any point is the whole 128 × 64 array. -/
theorem weights_block (c : Dev nD) (t : Fin cfg2.N) (r : Fin 128) (q : Fin 64) :
    (iblk2 (F := Ideal) V c 2 t : S128x64.Idx → EReal) (ix2 r q) = (V c main_arg10 : S128x64.Idx → EReal) (ix2 r q) := by
  obtain ⟨-, -, -, -, e0, e1, -⟩ := block_indices t
  unfold iblk2
  rw [View.read_apply]
  show V c main_arg10 _ = V c main_arg10 _
  congr 1
  funext a
  apply Fin.ext
  match a with
  | ⟨0, _⟩ => show win2_2.index t (0 : Fin 2) * 128 + 1 * r.val = r.val; omega
  | ⟨1, _⟩ => show win2_2.index t (1 : Fin 2) * 64 + 1 * q.val = q.val; omega

/-- The bias's block at any point is the whole 64-vector. -/
theorem bias_block (c : Dev nD) (t : Fin cfg2.N) (q : Fin 64) :
    (iblk2 (F := Ideal) V c 3 t : S64.Idx → EReal) (ix1 q) = (V c main_arg11 : S64.Idx → EReal) (ix1 q) := by
  obtain ⟨-, -, -, -, -, -, e0, -⟩ := block_indices t
  unfold iblk2
  rw [View.read_apply]
  show V c main_arg11 _ = V c main_arg11 _
  congr 1
  funext a
  apply Fin.ext
  match a with
  | ⟨0, _⟩ => show win2_3.index t (0 : Fin 1) * 64 + 1 * q.val = q.val; omega

/-- WHAT POINT t WRITES BACK is block t of the node update of the arrays as the region finds them. -/
theorem flushed_eq (c : Dev nD) (t : Fin cfg2.N) :
    (dat2 (F := Ideal) V c).flushed 4 t
      = ((cfg2.win 4).blk t).view.read (Elt Ideal)
          (Cert.Net.nodeUpdate (V c main_v6) (V c main_v0) (V c main_arg10) (V c main_arg11)) := by
  show (cfg2.win 4).cut (grid2.coords t) ((dat2 V c).after 4 t) = _
  rw [after2_4]
  unfold out2_4
  rw [View.canon_unit_zero zero_offsets2]
  simp only [View.ld_unit_zero (S := S10000x64) zero_offsets2, View.ld_unit_zero (S := S128x64) zero_offsets2,
    View.ld_unit_zero (S := S64) zero_offsets1]
  obtain ⟨-, -, -, -, -, -, -, e0, e1, ht⟩ := block_indices t
  funext j
  obtain ⟨p, q, rfl⟩ : ∃ (p : Fin 10000) (q : Fin 64), j = ix2 p q := ⟨j 0, j 1, eq_ix2 j⟩
  have hemb : ((cfg2.win 4).blk t).view.emb (ix2 p q) = ix2 (⟨t.val * 10000 + p.val, by have := p.isLt; omega⟩ : Fin 50000) q := by
    funext a
    apply Fin.ext
    match a with
    | ⟨0, _⟩ => show win2_4.index t (0 : Fin 2) * 10000 + 1 * p.val = t.val * 10000 + p.val; omega
    | ⟨1, _⟩ => show win2_4.index t (1 : Fin 2) * 64 + 1 * q.val = q.val; omega
  show k2_pay1 (F := Ideal) (iblk2 V c 0 t) (iblk2 V c 1 t) (iblk2 V c 2 t) (iblk2 V c 3 t) (ix2 p q)
    = Cert.Net.nodeUpdate (V c main_v6) (V c main_v0) (V c main_arg10) (V c main_arg11) (((cfg2.win 4).blk t).view.emb (ix2 p q))
  refine (payload_at _ _ _ _ p q).trans ?_
  rw [hemb, Cert.Net.nodeUpdate_ix2]
  unfold Cert.Net.nodeUpdateAt
  have hA : ∀ k : Fin 64, (iblk2 (F := Ideal) V c 0 t : S10000x64.Idx → EReal) (ix2 p k)
      = (V c main_v6 : S50000x64.Idx → EReal) (ix2 (⟨t.val * 10000 + p.val, by have := p.isLt; omega⟩ : Fin 50000) k) :=
    fun k => messages_block V c t p k _ rfl
  have hH : ∀ k : Fin 64, (iblk2 (F := Ideal) V c 1 t : S10000x64.Idx → EReal) (ix2 p k)
      = (V c main_v0 : S50000x64.Idx → EReal) (ix2 (⟨t.val * 10000 + p.val, by have := p.isLt; omega⟩ : Fin 50000) k) :=
    fun k => embedding_block V c t p k _ rfl
  simp only [hA, hH, weights_block V c t, bias_block V c t]

/-- An index of the array is in point t's block iff each coordinate is in the block's range on its axis. -/
theorem mem_block (t : Fin cfg2.N) (i : S50000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v7).slice (win2_4.rect t)).set ↔ _
  rw [View.set_slice_whole, Rect.mem_set_unit]
  exact Iff.rfl

/-- THE ARRAY after the region: the five row blocks tile the 50000 rows (row n is written at point n / 10000), so
    the output array ends holding the node update of the arrays as the region finds them. -/
theorem node_update_final (c : Dev nD) :
    (dat2 (F := Ideal) V c).arrAt 4 cfg2.N
      = Cert.Net.nodeUpdate (V c main_v6) (V c main_v0) (V c main_arg10) (V c main_arg11) :=
  (dat2 (F := Ideal) V c).arrAt_eq_of_cover 4 _ (fun t _ => flushed_eq V c t) fun i => by
    have hi0 : (i 0).val < 50000 := (i 0).isLt
    have hi1 : (i 1).val < 64 := (i 1).isLt
    obtain ⟨t, ht⟩ := point_of_block ⟨(i 0).val / 10000, by omega⟩
    have ht' : t.val = (i 0).val / 10000 := ht
    obtain ⟨-, -, -, -, -, -, -, e0, e1, -⟩ := block_indices t
    refine ⟨t, flush2_4 t, ?_⟩
    rw [mem_block]
    intro a
    match a with
    | ⟨0, _⟩ =>
      show win2_4.index t (0 : Fin 2) * 10000 ≤ (i 0).val ∧ (i 0).val < win2_4.index t (0 : Fin 2) * 10000 + 10000
      omega
    | ⟨1, _⟩ =>
      show win2_4.index t (1 : Fin 2) * 64 ≤ (i 1).val ∧ (i 1).val < win2_4.index t (1 : Fin 2) * 64 + 64
      omega

end Cert.Net.Region2

end
-- ==== Proof.KernelValue.lean ====
/-
  What the idealized kernel program computes, as one function of its twelve argument arrays.

  Read back through the run: the result is the node features joined to region 2's output; region 2's output is the
  node update of the aggregated messages and the node embedding; the aggregated messages are the sum of region 1's
  output rows into their receiver rows; region 1's output is the edge update of the edge features and the two row
  selections; each row selection reads the node embedding, which is region 0's output, the node embedding of the node
  features. Every argument buffer a segment reads is as launched.
-/
import proofs.«420068_j49409303773498_2_alg».proof.Proof.KernelFold
import proofs.«420068_j49409303773498_2_alg».proof.Proof.Region0
import proofs.«420068_j49409303773498_2_alg».proof.Proof.Region1
import proofs.«420068_j49409303773498_2_alg».proof.Proof.Region2
import proofs.«420068_j49409303773498_2_alg».proof.Proof.Spec

set_option maxRecDepth 16384

noncomputable section

namespace Cert.Net.KValue

open Cert.KernelIdeal Cert.KernelIdeal.Gen Cert.Net.KFold Idealize.ShloMosaic Idealize.ShloMosaic.TcCoe Idealize.SL.Sem

/-- The program's result from its arguments: node features X, edge features Ed, sender and receiver indices, and the
    four stages' weights and biases. -/
def kernelOut (X : FVec Ideal S50000x32 .f32) (Ed : FVec Ideal S1000000x16 .f32) (snd rcv : IVec S1000000 32)
    (Wn : FVec Ideal S32x64 .f32) (bn : FVec Ideal S64 .f32) (Wm : FVec Ideal S16x64 .f32) (bm : FVec Ideal S64 .f32)
    (We : FVec Ideal S192x64 .f32) (be : FVec Ideal S64 .f32) (Wu : FVec Ideal S128x64 .f32) (bu : FVec Ideal S64 .f32) :
    FVec Ideal S50000x96 .f32 :=
  joinOut (F := Ideal) X
    (Cert.Net.nodeUpdate
      (scatterRows (F := Ideal) rcv
        (Cert.Net.edgeUpdate Ed (takeFill (F := Ideal) (Cert.Net.embedNode X Wn bn) rcv)
          (takeFill (F := Ideal) (Cert.Net.embedNode X Wn bn) snd) Wm bm We be))
      (Cert.Net.embedNode X Wn bn) Wu bu)

variable (m : (ℓ : Loc nD τ sig) → Buf (Elt Ideal) ℓ) (ρ : Dev nD → PrngReg)

/-- Region 0's output array after the region: the node embedding of the launched node features. -/
theorem nodeEmbedding_eq (c : Dev nD) :
    W1 m ρ c (Proc.devRef .tc main_v0)
      = Cert.Net.embedNode (m ((c : Thread nD τ).loc main_arg0)) (m ((c : Thread nD τ).loc main_arg4))
          (m ((c : Thread nD τ).loc main_arg5)) :=
  (W1_arr m ρ c 3).trans (Cert.Net.Region0.node_embed_final (V0 m ρ) c)

/-- Region 1's output array after the region: the edge update of what the region found in its input arrays. -/
theorem edgeRows_eq (c : Dev nD) :
    W4 m ρ c (Proc.devRef .tc main_v3)
      = Cert.Net.edgeUpdate (W3 m ρ c (Proc.devRef .tc main_arg1)) (W3 m ρ c (Proc.devRef .tc main_v1))
          (W3 m ρ c (Proc.devRef .tc main_v2)) (W3 m ρ c (Proc.devRef .tc main_arg6)) (W3 m ρ c (Proc.devRef .tc main_arg7))
          (W3 m ρ c (Proc.devRef .tc main_arg8)) (W3 m ρ c (Proc.devRef .tc main_arg9)) :=
  (W4_arr m ρ c 7).trans (Cert.Net.Region1.edge_block_final (V3 m ρ) c)

/-- Region 2's output array after the region: the node update of what the region found in its input arrays. -/
theorem nodeRows_eq (c : Dev nD) :
    W6 m ρ c (Proc.devRef .tc main_v7)
      = Cert.Net.nodeUpdate (W5 m ρ c (Proc.devRef .tc main_v6)) (W5 m ρ c (Proc.devRef .tc main_v0))
          (W5 m ρ c (Proc.devRef .tc main_arg10)) (W5 m ρ c (Proc.devRef .tc main_arg11)) :=
  (W6_arr m ρ c 4).trans (Cert.Net.Region2.node_update_final (V5 m ρ) c)

/-- The result buffer after the run is the program's function of the launched arguments. -/
theorem result_eq (c : Dev nD) :
    W7 m ρ c (Proc.devRef .tc main_v8)
      = kernelOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11)) := by
  rw [out_eq, W6_main_arg0, nodeRows_eq, agg_eq, W5_main_v0, W5_main_arg10, W5_main_arg11, W4_main_arg3, edgeRows_eq,
    W3_main_arg1, W3_main_arg6, W3_main_arg7, W3_main_arg8, W3_main_arg9, W3_main_v1, recvRows_eq, sendRows_eq,
    W2_main_v0, W2_main_arg2, W1_main_arg3, nodeEmbedding_eq]
  rfl

end Cert.Net.KValue

end
-- ==== Proof.PreFacts.lean ====
/-
  What the precondition says about the sender indices. The precondition is one bit, the conjunction of one "all"
  per clause: every float input finite, every sender index at least 0, every sender index below 50000. The bit being 1
  makes each clause's "all" 1, an "all" being 1 makes each of its elements 1, and a signed compare being 1 is the order
  of the two words read as signed integers.
-/
import proofs.«420068_j49409303773498_2_alg».proof.Pre_finite_inputs
import proofs.«420068_j49409303773498_2_alg».proof.Proof.Gen.Pre_finite_inputs
import Idealize.ShloMosaic.PureOps.Ideal
import Idealize.ShloMosaic.Lib.ReduceAll
import Idealize.ShloMosaic.Lib.Affine
import Idealize.ShloMosaic.Lib.ValueIdx

set_option maxRecDepth 16384

noncomputable section

namespace Cert.Net.PreFacts

open Cert.Pre_finite_inputs Cert.Pre_finite_inputs.Gen Idealize.ShloMosaic Idealize.ShloMosaic.ValueIdx

/-- A rank-zero array has one index. -/
instance : Subsingleton S_.Idx := ⟨fun a b => funext fun d => d.elim0⟩

/-- Under the precondition every sender index lies in [0, 50000). -/
theorem senders_inRange (a0 : FVec Ideal S50000x32 .f32) (a1 : FVec Ideal S1000000x16 .f32) (a2 a3 : IVec S1000000 32)
    (a4 : FVec Ideal S32x64 .f32) (a5 : FVec Ideal S64 .f32) (a6 : FVec Ideal S16x64 .f32) (a7 : FVec Ideal S64 .f32)
    (a8 : FVec Ideal S192x64 .f32) (a9 : FVec Ideal S64 .f32) (a10 : FVec Ideal S128x64 .f32) (a11 : FVec Ideal S64 .f32)
    (h : fn (F := Ideal) a0 a1 a2 a3 a4 a5 a6 a7 a8 a9 a10 a11 = fun _ => 1#1) (e : Fin 1000000) :
    0 ≤ (a2 (ix1 e)).toInt ∧ (a2 (ix1 e)).toInt < 50000 := by
  have h1 := congrFun h ix0
  unfold fn fn_part1 fn_part2 fn_part3 at h1
  dsimp only at h1
  obtain ⟨h52, h55⟩ := IntOp.andi_eq_one.1 h1
  obtain ⟨-, h51⟩ := IntOp.andi_eq_one.1 h52
  have hlt := Host.reduce_andi_all _ _ _ _ _ h55 (ix1 e)
  have hge := Host.reduce_andi_all _ _ _ _ _ h51 (ix1 e)
  have hz0 : (0#32 : BitVec 32).toInt = 0 := by decide
  have hk : (50000#32 : BitVec 32).toInt = 50000 := by decide
  refine ⟨?_, ?_⟩
  · have := IntOp.cmpi_sge.1 hge
    change (0#32 : BitVec 32).toInt ≤ (a2 (ix1 e)).toInt at this
    omega
  · have := IntOp.cmpi_slt.1 hlt
    change (a2 (ix1 e)).toInt < (50000#32 : BitVec 32).toInt at this
    omega

end Cert.Net.PreFacts

end
-- ==== Proof.RowFacts.lean ====
/-
  Facts about rows. The row selection of the kernel program replaces a row by zeros when its index, wrapped by 50000
  if negative, falls outside [0, 49999]; at a row whose index already lies in [0, 50000) nothing is wrapped, the range
  test passes, and the selected row is the gathered row. The sum of update rows into their receiver rows adds an
  update row only where its receiver index, read signed and not wrapped, lies in [0, 50000); rows with any other
  index contribute nothing, so the sums depend on the update rows only through those rows.
-/
import proofs.«420068_j49409303773498_2_alg».proof.Proof.KernelFold
import proofs.«420068_j49409303773498_2_alg».proof.Proof.Spec
import Idealize.ShloMosaic.PureOps.Ideal
import Idealize.ShloMosaic.PureOps.Reduce
import Idealize.ShloMosaic.Lib.Affine
import Idealize.ShloMosaic.Lib.ValueIdx
import Idealize.ShloMosaic.Lib.Pipeline.Value

set_option maxRecDepth 16384

noncomputable section

namespace Cert.Net.Rows

open Cert.KernelIdeal Cert.KernelIdeal.Gen Cert.Net.KFold Idealize.ShloMosaic Idealize.ShloMosaic.ValueIdx

/-! ## A conjunction of bits -/

/-- A left fold by "and" that starts at 1 and meets only 1s ends at 1. -/
theorem foldl_andi_one {ι : Type} (f : ι → BitVec 1) :
    ∀ (l : List ι) (a : BitVec 1), a = 1#1 → (∀ n ∈ l, f n = 1#1) → l.foldl (fun r n => IntOp.andi r (f n)) a = 1#1
  | [], _, ha, _ => ha
  | b :: l, _, ha, hl =>
    foldl_andi_one f l _ (IntOp.andi_eq_one.2 ⟨ha, hl b List.mem_cons_self⟩) (fun n hn => hl n (List.mem_cons_of_mem _ hn))

/-- A reduction by "and" from 1 is 1 at j when every element that reduces into j is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  refine foldl_andi_one x _ _ hinit (fun i hi => hx i ?_)
  simpa using (List.mem_filter.1 hi).2

/-! ## The row selection at a row whose index is in range -/

/-- The index column at a row: the row's index, wrapped by 50000 when negative. -/
theorem wrapIdx_apply (idx : IVec S1000000 32) (i : S1000000x1.Idx) :
    wrapIdx idx i = Scalar.select (IntOp.cmpi .slt (idx (ix1 (i 0))) 0#32) (IntOp.addi (idx (ix1 (i 0))) 50000#32)
      (idx (ix1 (i 0))) := by
  unfold wrapIdx
  rw [broadcastInDim_apply _ bcast_S1000000_S1000000x1_0 _ i (ix1 (i 0)) (fun a => match a with
    | ⟨0, _⟩ => by show (i 0).val = if (1000000 : Nat) = 1 then 0 else (i 0).val; rw [if_neg (by decide)])]
  rfl

/-- A nonnegative index is not wrapped. -/
theorem wrapIdx_of_nonneg (idx : IVec S1000000 32) (i : S1000000x1.Idx) (h0 : 0 ≤ (idx (ix1 (i 0))).toInt) :
    wrapIdx idx i = idx (ix1 (i 0)) := by
  rw [wrapIdx_apply]
  have hz : IntOp.cmpi .slt (idx (ix1 (i 0))) 0#32 = 0#1 := by
    refine eq_zero_of_ne_one (fun h1 => ?_)
    have := IntOp.cmpi_slt.1 h1
    have hz0 : (0#32 : BitVec 32).toInt = 0 := by decide
    omega
  rw [hz, select_zero]

/-- At a row whose index lies in [0, 50000) the range test passes. -/
theorem rowOk_of_inRange (idx : IVec S1000000 32) (e : Fin 1000000) (h0 : 0 ≤ (idx (ix1 e)).toInt)
    (h1 : (idx (ix1 e)).toInt < 50000) : rowOk (wrapIdx idx) (ix1 e) = 1#1 := by
  unfold rowOk
  refine reduce_andi_one _ _ _ _ _ rfl (fun i hi => ?_)
  have hie : i 0 = e := by
    have := congrArg (fun f : S1000000.Idx => (f 0).val) hi
    exact Fin.ext this
  have hw : wrapIdx idx i = idx (ix1 e) := by
    rw [wrapIdx_of_nonneg idx i (by rw [hie]; exact h0), hie]
  show IntOp.andi (IntOp.cmpi .sge (wrapIdx idx i) 0#32) (IntOp.cmpi .sle (wrapIdx idx i) 49999#32) = 1#1
  rw [hw]
  refine IntOp.andi_eq_one.2 ⟨IntOp.cmpi_sge.2 ?_, IntOp.cmpi_sle.2 ?_⟩
  · have hz0 : (0#32 : BitVec 32).toInt = 0 := by decide
    omega
  · have hk : (49999#32 : BitVec 32).toInt = 49999 := by decide
    omega

/-- At a row whose index lies in [0, 50000) the selected row is the gathered row. -/
theorem takeFill_of_inRange (H : FVec Ideal S50000x64 .f32) (idx : IVec S1000000 32) (e : Fin 1000000) (k : Fin 64)
    (h0 : 0 ≤ (idx (ix1 e)).toInt) (h1 : (idx (ix1 e)).toInt < 50000) :
    takeFill H idx (ix2 e k)
      = Host.gather gather_S50000x64_S1000000x1_S1000000x64_1_0_n_n_0_1_164 H (wrapIdx idx) (ix2 e k) := by
  unfold takeFill
  rw [select_apply]
  have hb : broadcastInDim S1000000x64 ![0] bcast_S1000000_S1000000x64_0 (rowOk (wrapIdx idx)) (ix2 e k)
      = rowOk (wrapIdx idx) (ix1 e) :=
    broadcastInDim_apply _ bcast_S1000000_S1000000x64_0 _ (ix2 e k) (ix1 e) (fun a => match a with
      | ⟨0, _⟩ => by show e.val = if (1000000 : Nat) = 1 then 0 else e.val; rw [if_neg (by decide)])
  rw [hb, rowOk_of_inRange idx e h0 h1, select_one]

/-! ## The sum of rows into their receivers -/

/-- An update row lands inside the table only if its index lies in [0, 50000). -/
theorem inRange_of_lands (idx : IVec S1000000 32) (j : S1000000x64.Idx) (i : S50000x64.Idx)
    (h : scatter_S50000x64_S1000000x1_S1000000x64_1_0_0_1.resultIdx? j
        (broadcastInDim S1000000x1 ![0] bcast_S1000000_S1000000x1_0 idx) = some i) :
    0 ≤ (idx (ix1 (j 0))).toInt ∧ (idx (ix1 (j 0))).toInt < 50000 := by
  unfold ScatterDims.resultIdx? at h
  split at h
  · rename_i hall
    have hA := hall 0
    have hs : scatter_S50000x64_S1000000x1_S1000000x64_1_0_0_1.start j
        (broadcastInDim S1000000x1 ![0] bcast_S1000000_S1000000x1_0 idx) 0 = (idx (ix1 (j 0))).toInt := by
      unfold ScatterDims.start
      rw [dif_pos (show (0 : Fin 2) ∈ scatter_S50000x64_S1000000x1_S1000000x64_1_0_0_1.scatterDimsToOperandDims from
        List.mem_singleton.mpr rfl)]
      refine congrArg BitVec.toInt ?_
      refine (broadcastInDim_apply _ bcast_S1000000_S1000000x1_0 idx _ (ix1 (j 0)) (fun a => match a with
        | ⟨0, _⟩ => by
          show (j 0).val = if (1000000 : Nat) = 1 then 0 else _
          rw [if_neg (by decide)]; rfl))
    have hw : scatter_S50000x64_S1000000x1_S1000000x64_1_0_0_1.window j 0 = 0 := by
      unfold ScatterDims.window
      rw [dif_neg (by decide)]
    rw [hs, hw] at hA
    have hsz : S50000x64.size 0 = 50000 := rfl
    rw [hsz] at hA
    omega
  · cases h

/-- A scatter-add on the extended reals depends on the update elements only where they land inside the operand:
    two update arrays that agree at every element that lands somewhere give the same result. Stated for any dimension
    numbers and shapes: the result at i is the operand at i plus the sum of the updates landing at i. -/
theorem hostScatterAdd_congr {s si su : Shape} (d : ScatterDims s si su) {w : Nat} (z : s.Idx → EReal) (I : IVec si w)
    (U U' : su.Idx → EReal) (h : ∀ j i, d.resultIdx? j I = some i → U j = U' j) :
    Ideal.hostScatterAdd d z I U = Ideal.hostScatterAdd d z I U' := by
  funext i
  unfold Ideal.hostScatterAdd
  exact congrArg (z i + ·) (Finset.sum_congr rfl (fun j hj => h j i (Finset.mem_filter.1 hj).2))

/-- The sum of update rows into their receivers sees only the rows whose index lies in [0, 50000): two families of
    update rows that agree on those rows have the same sums. -/
theorem scatterRows_congr (idx : IVec S1000000 32) (U U' : FVec Ideal S1000000x64 .f32)
    (h : ∀ j : S1000000x64.Idx, 0 ≤ (idx (ix1 (j 0))).toInt → (idx (ix1 (j 0))).toInt < 50000 → U j = U' j) :
    scatterRows idx U = scatterRows idx U' := by
  unfold scatterRows Host.scatterAdd
  rw [Ideal.hostScatterAdd_def, Ideal.hostScatterAdd_def]
  exact hostScatterAdd_congr _ _ _ U U' (fun j i hji =>
    h j (inRange_of_lands idx j i hji).1 (inRange_of_lands idx j i hji).2)

end Cert.Net.Rows

end
-- ==== Proof.RefNode.lean ====
/-
  The reference's two node stages, read entry by entry.

  The node embedding: the reference forms X · W + b (the bias row repeated down the rows) and applies
  x ↦ x · (1 / (1 + e^(-x))), spelled with negate, exponential, add, divide and multiply; entry (n, j) is therefore
  swish (Σ_k X[n, k] · W[k, j] + b[j]), k < 32.

  The node update: the reference joins the aggregated messages A and the node embedding H side by side into one row of
  128 entries, multiplies by the 128 × 64 weights, adds the bias and applies the same function. Column k < 64 of the
  joined row is A's column k and column 64 + k is H's column k, so the sum over the 128 columns is the sum of its two
  runs of 64. Only the regrouping of a finite sum on the extended reals is used; no distributivity.
-/
import proofs.«420068_j49409303773498_2_alg».proof.Proof.RefRead
import proofs.«420068_j49409303773498_2_alg».proof.Proof.Spec
import Idealize.ShloMosaic.PureOps.Ideal
import Idealize.ShloMosaic.Lib.ValueIdx
import Idealize.ShloMosaic.Lib.Pipeline.Value
import Mathlib.Algebra.BigOperators.Fin

noncomputable section

namespace Cert.Net.RefD

open Cert.ReferenceIdeal Cert.ReferenceIdeal.Gen Cert.ReferenceIdeal.ReadP Idealize.ShloMosaic Idealize.ShloMosaic.ValueIdx

/-- The word 0x3F800000 is the number one. -/
theorem one_word : Ideal.ofBits .f32 0x3F800000#32 = 1 := by
  simp [Ideal.ofBits, Ideal.ieee, -EReal.coe_mul]; norm_num

/-- x · (1 / (1 + e^(-x))), with the two ones given by their words, is swish x. -/
theorem silu_eq (x : EReal) :
    x * Ideal.div (Ideal.ofBits .f32 0x3F800000#32) (Ideal.ofBits .f32 0x3F800000#32 + Ideal.exp (-x)) = Cert.Net.swish x := by
  rw [one_word, Cert.Net.swish, Ideal.logistic]

/-- A sum over 128 columns is the sum over columns 0 … 63 plus the sum over columns 64 … 127. -/
theorem sum_two_runs (f : Fin 128 → EReal) :
    ∑ k : Fin 128, f k
      = (∑ k : Fin 64, f (Cert.Net.row128 0 (by omega) k)) + ∑ k : Fin 64, f (Cert.Net.row128 64 (by omega) k) := by
  refine (Fin.sum_univ_add (a := 64) (b := 64) f).trans (congrArg₂ (· + ·) ?_ ?_)
  · exact Finset.sum_congr rfl fun k _ => congrArg f (Fin.ext (Nat.zero_add k.val).symm)
  · exact Finset.sum_congr rfl fun k _ => congrArg f (Fin.ext rfl)

/-- Two 50000 × 64 matrices joined side by side: a column below 64 reads the left matrix. -/
theorem join_left (hc : Shape.Concatenates [S50000x64, S50000x64] S50000x128 1)
    (A H : S50000x64.Idx → EReal) (p : Fin 50000) (k : Fin 64) (j : S50000x128.Idx)
    (h0 : (j 0).val = p.val) (h1 : (j 1).val = k.val) :
    concatenate S50000x128 1 [⟨S50000x64, A⟩, ⟨S50000x64, H⟩] hc j = A (ix2 p k) :=
  concatenate_pair_apply_left 1 A H hc j rfl (ix2 p k) (fun b => match b with
    | ⟨0, _⟩ => h0.symm
    | ⟨1, _⟩ => h1.symm)

/-- Two 50000 × 64 matrices joined side by side: column 64 + k reads the right matrix at column k. -/
theorem join_right (hc : Shape.Concatenates [S50000x64, S50000x64] S50000x128 1)
    (A H : S50000x64.Idx → EReal) (p : Fin 50000) (k : Fin 64) (j : S50000x128.Idx)
    (h0 : (j 0).val = p.val) (h1 : (j 1).val = k.val + 64) :
    concatenate S50000x128 1 [⟨S50000x64, A⟩, ⟨S50000x64, H⟩] hc j = H (ix2 p k) :=
  concatenate_pair_apply_right 1 A H hc j rfl rfl (ix2 p k)
    (fun b hb => by
      match b with
      | ⟨0, _⟩ => exact h0.symm
      | ⟨1, _⟩ => exact absurd rfl hb)
    h1.symm

/-- The node embedding of the reference is the specification's. -/
theorem ref_embedNode (x0 : (⟨S50000x32, .f32⟩ : BufTy).Contents (Elt Ideal)) (x4 : (⟨S32x64, .f32⟩ : BufTy).Contents (Elt Ideal)) (x5 : (⟨S64, .f32⟩ : BufTy).Contents (Elt Ideal)) :
    val_main_v4 (F := Ideal) x0 x4 x5 = Cert.Net.embedNode x0 x4 x5 := by
  funext i
  obtain ⟨p, q, rfl⟩ : ∃ (p : Fin 50000) (q : Fin 64), i = ix2 p q := ⟨i 0, i 1, eq_ix2 i⟩
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, val_main_v3_apply, val_main_v0_apply, val_main_v2_apply, val_main_v1_apply]
  have hl : ∀ k : Fin 32, lidx_main_v0 (ix2 p q) k = ix2 p k := fun k =>
    funext fun a => Fin.ext (by match a with | ⟨0, _⟩ => rfl | ⟨1, _⟩ => rfl)
  have hr : ∀ k : Fin 32, ridx_main_v0 (ix2 p q) k = ix2 k q := fun k =>
    funext fun a => Fin.ext (by match a with | ⟨0, _⟩ => rfl | ⟨1, _⟩ => rfl)
  have hb : idx_main_v1 (idx_main_v2 (ix2 p q)) = ix1 q :=
    funext fun a => Fin.ext (by match a with | ⟨0, _⟩ => rfl)
  simp only [Ideal.mulf_def, Ideal.addf_def, Ideal.hostDivf_def, Ideal.hostUnary_exp_def, Ideal.hostNegf_def,
    Ideal.negf_def, Ideal.ofBits_def]
  rw [silu_eq, Cert.Net.embedNode_ix2, Cert.Net.embedNodeAt]
  refine congrArg Cert.Net.swish (congrArg₂ (· + ·) (Finset.sum_congr rfl fun k _ => ?_) ?_)
  · rw [hl, hr]
  · rw [hb]

/-- The node update of the reference is the specification's, over the aggregated messages and the node embedding as
    the reference computes them. -/
theorem ref_nodeUpdate (x0 : (⟨S50000x32, .f32⟩ : BufTy).Contents (Elt Ideal)) (x1 : (⟨S1000000x16, .f32⟩ : BufTy).Contents (Elt Ideal)) (x2 x3 : (⟨S1000000, .i32⟩ : BufTy).Contents (Elt Ideal)) (x4 : (⟨S32x64, .f32⟩ : BufTy).Contents (Elt Ideal)) (x5 : (⟨S64, .f32⟩ : BufTy).Contents (Elt Ideal)) (x6 : (⟨S16x64, .f32⟩ : BufTy).Contents (Elt Ideal)) (x7 : (⟨S64, .f32⟩ : BufTy).Contents (Elt Ideal)) (x8 : (⟨S192x64, .f32⟩ : BufTy).Contents (Elt Ideal)) (x9 : (⟨S64, .f32⟩ : BufTy).Contents (Elt Ideal)) (x10 : (⟨S128x64, .f32⟩ : BufTy).Contents (Elt Ideal)) (x11 : (⟨S64, .f32⟩ : BufTy).Contents (Elt Ideal)) :
    val_main_v38 (F := Ideal) x0 x1 x2 x3 x4 x5 x6 x7 x8 x9 x10 x11
      = Cert.Net.nodeUpdate (val_main_v32 (F := Ideal) x0 x1 x2 x3 x4 x5 x6 x7 x8 x9) (val_main_v4 (F := Ideal) x0 x4 x5) x10 x11 := by
  funext i
  obtain ⟨p, q, rfl⟩ : ∃ (p : Fin 50000) (q : Fin 64), i = ix2 p q := ⟨i 0, i 1, eq_ix2 i⟩
  rw [val_main_v38_apply, val_main_call3_v5_apply, val_main_call3_v4_apply, val_main_call3_cst_0_apply,
    val_main_call3_v3_apply, val_main_call3_v2_apply, val_main_call3_cst_apply, val_main_call3_v1_apply,
    val_main_call3_v0_apply, val_main_v37_apply, val_main_v34_apply, val_main_v36_apply, val_main_v35_apply]
  have hL : ∀ k : Fin 64, val_main_v33 (F := Ideal) x0 x1 x2 x3 x4 x5 x6 x7 x8 x9 (lidx_main_v34 (ix2 p q) (Cert.Net.row128 0 (by omega) k))
      = val_main_v32 (F := Ideal) x0 x1 x2 x3 x4 x5 x6 x7 x8 x9 (ix2 p k) := fun k => by
    unfold val_main_v33
    exact join_left _ _ _ p k _ rfl (Nat.zero_add k.val)
  have hR : ∀ k : Fin 64, val_main_v33 (F := Ideal) x0 x1 x2 x3 x4 x5 x6 x7 x8 x9 (lidx_main_v34 (ix2 p q) (Cert.Net.row128 64 (by omega) k))
      = val_main_v4 (F := Ideal) x0 x4 x5 (ix2 p k) := fun k => by
    unfold val_main_v33
    exact join_right _ _ _ p k _ rfl (Nat.add_comm 64 k.val)
  have hw : ∀ r : Fin 128, ridx_main_v34 (ix2 p q) r = ix2 r q := fun r =>
    funext fun a => Fin.ext (by match a with | ⟨0, _⟩ => rfl | ⟨1, _⟩ => rfl)
  have hb : idx_main_v35 (idx_main_v36 (ix2 p q)) = ix1 q :=
    funext fun a => Fin.ext (by match a with | ⟨0, _⟩ => rfl)
  simp only [Ideal.mulf_def, Ideal.addf_def, Ideal.hostDivf_def, Ideal.hostUnary_exp_def, Ideal.hostNegf_def,
    Ideal.negf_def, Ideal.ofBits_def]
  rw [silu_eq, Cert.Net.nodeUpdate_ix2, Cert.Net.nodeUpdateAt, sum_two_runs]
  refine congrArg Cert.Net.swish (congrArg₂ (· + ·) (congrArg₂ (· + ·)
    (Finset.sum_congr rfl fun k _ => ?_) (Finset.sum_congr rfl fun k _ => ?_)) ?_)
  · rw [hL, hw]
  · rw [hR, hw]
  · rw [hb]

end Cert.Net.RefD

end
-- ==== Proof.RefEdge.lean ====
/-
  The reference program's edge update, read index by index, is the specification's edge update.

  The reference forms the 1000000 × 192 array [g | R | S] by concatenating the edge embedding g with two gathered
  arrays R and S (64 columns each), contracts it with the 192 × 64 weights, adds the bias row and applies swish, spelt
  x · (1 / (1 + e^(-x))) with the host's operations. Here: that spelling is swish; a sum over 192 indices is the sum of
  its three consecutive runs of 64; column o + k of the concatenation is column k of the piece starting at o; the edge
  embedding is the specification's. The two gathered arrays are never opened.
-/
import proofs.«420068_j49409303773498_2_alg».proof.Proof.RefRead
import proofs.«420068_j49409303773498_2_alg».proof.Proof.Spec
import Idealize.ShloMosaic.Lib.Pipeline.Value
import Idealize.ShloMosaic.Lib.ValueIdx
import Idealize.ShloMosaic.PureOps.Ideal
import Mathlib.Algebra.BigOperators.Fin

noncomputable section

namespace Cert.Net.RefE

open Cert.ReferenceIdeal Cert.ReferenceIdeal.Gen Cert.ReferenceIdeal.ReadP Idealize.ShloMosaic Idealize.ShloMosaic.ValueIdx

/-! ## The logistic function in the host's spelling -/

/-- The single-precision word 0x3F800000 denotes the real number 1. -/
theorem one_word : Ideal.ofBits .f32 0x3F800000#32 = 1 := by
  simp [Ideal.ofBits, Ideal.ieee, -EReal.coe_mul]; norm_num

/-- y · (1 / (1 + e^(-y))), written with the host's negate, exponential, add, divide and multiply and the constant 1
    given by its word, is swish y: the quotient is the logistic function by definition. -/
theorem host_swish (y : Ideal .f32) :
    FloatOps.mulf y (FloatOps.hostDivf (FloatOps.ofBits .f32 0x3F800000#32)
      (FloatOps.addf (FloatOps.ofBits .f32 0x3F800000#32) (FloatOps.hostUnary .exp (FloatOps.hostNegf y)))) = swish y := by
  show y * Ideal.div (Ideal.ofBits .f32 0x3F800000#32) (Ideal.ofBits .f32 0x3F800000#32 + Ideal.exp (-y)) = swish y
  rw [one_word]; rfl

/-! ## A sum over 192 consecutive indices is the sum of its three runs of 64 -/

/-- ∑_{k < 192} f k = (∑_{k < 64} f k + ∑_{k < 64} f (64 + k)) + ∑_{k < 64} f (128 + k): 192 = (64 + 64) + 64, and a sum
    over Fin (a + b) is the sum over its first a indices plus the sum over its last b. -/
theorem sum192 (f : Fin 192 → EReal) :
    ∑ k : Fin 192, f k
      = ((∑ k : Fin 64, f (row192 0 (by omega) k)) + ∑ k : Fin 64, f (row192 64 (by omega) k))
          + ∑ k : Fin 64, f (row192 128 (by omega) k) := by
  have h1 : ∑ k : Fin 192, f k
      = (∑ i : Fin (64 + 64), f (Fin.castAdd 64 i)) + ∑ i : Fin 64, f (Fin.natAdd (64 + 64) i) :=
    Fin.sum_univ_add (a := 64 + 64) (b := 64) f
  have h2 : ∑ i : Fin (64 + 64), f (Fin.castAdd 64 i)
      = (∑ i : Fin 64, f (Fin.castAdd 64 (Fin.castAdd 64 i))) + ∑ i : Fin 64, f (Fin.castAdd 64 (Fin.natAdd 64 i)) :=
    Fin.sum_univ_add (a := 64) (b := 64) fun i => f (Fin.castAdd 64 i)
  rw [h1, h2]
  refine congrArg₂ (· + ·) (congrArg₂ (· + ·) ?_ ?_) ?_
  · exact Finset.sum_congr rfl fun k _ => congrArg f (Fin.ext (Nat.zero_add _).symm)
  · exact Finset.sum_congr rfl fun k _ => congrArg f (Fin.ext rfl)
  · exact Finset.sum_congr rfl fun k _ => congrArg f (Fin.ext rfl)

/-! ## The three-piece concatenation along the columns, read inside each piece

Column o + k of the 1000000 × 192 concatenation [a | b | c], for k < 64, is column k of the piece whose span starts
at o: the extents before it sum to o, the row coordinate is unchanged. -/

/-- Columns 0 … 63 are the first piece. -/
theorem concat_run0 {α : Type} (a b c : S1000000x64.Idx → α)
    (h : Shape.Concatenates [S1000000x64, S1000000x64, S1000000x64] S1000000x192 1) (p : Fin 1000000) (k : Fin 64) :
    concatenate S1000000x192 1 [⟨S1000000x64, a⟩, ⟨S1000000x64, b⟩, ⟨S1000000x64, c⟩] h (ix2 p (row192 0 (by omega) k))
      = a (ix2 p k) :=
  concatenate_apply_piece (1 : Fin S1000000x192.rank) [⟨S1000000x64, a⟩, ⟨S1000000x64, b⟩, ⟨S1000000x64, c⟩] h _
    0 (by show 0 < 3; omega) S1000000x64 a rfl rfl 0 rfl (ix2 p k)
    (fun d hd => by match d with | ⟨0, _⟩ => rfl | ⟨1, _⟩ => exact absurd rfl hd)
    rfl

/-- Columns 64 … 127 are the second piece. -/
theorem concat_run1 {α : Type} (a b c : S1000000x64.Idx → α)
    (h : Shape.Concatenates [S1000000x64, S1000000x64, S1000000x64] S1000000x192 1) (p : Fin 1000000) (k : Fin 64) :
    concatenate S1000000x192 1 [⟨S1000000x64, a⟩, ⟨S1000000x64, b⟩, ⟨S1000000x64, c⟩] h (ix2 p (row192 64 (by omega) k))
      = b (ix2 p k) :=
  concatenate_apply_piece (1 : Fin S1000000x192.rank) [⟨S1000000x64, a⟩, ⟨S1000000x64, b⟩, ⟨S1000000x64, c⟩] h _
    1 (by show 1 < 3; omega) S1000000x64 b rfl rfl 64 rfl (ix2 p k)
    (fun d hd => by match d with | ⟨0, _⟩ => rfl | ⟨1, _⟩ => exact absurd rfl hd)
    rfl

/-- Columns 128 … 191 are the third piece. -/
theorem concat_run2 {α : Type} (a b c : S1000000x64.Idx → α)
    (h : Shape.Concatenates [S1000000x64, S1000000x64, S1000000x64] S1000000x192 1) (p : Fin 1000000) (k : Fin 64) :
    concatenate S1000000x192 1 [⟨S1000000x64, a⟩, ⟨S1000000x64, b⟩, ⟨S1000000x64, c⟩] h (ix2 p (row192 128 (by omega) k))
      = c (ix2 p k) :=
  concatenate_apply_piece (1 : Fin S1000000x192.rank) [⟨S1000000x64, a⟩, ⟨S1000000x64, b⟩, ⟨S1000000x64, c⟩] h _
    2 (by show 2 < 3; omega) S1000000x64 c rfl rfl 128 rfl (ix2 p k)
    (fun d hd => by match d with | ⟨0, _⟩ => rfl | ⟨1, _⟩ => exact absurd rfl hd)
    rfl

/-! ## The edge embedding -/

/-- Entry (p, j) of the reference's edge embedding, swish (Σ_k Ed[p, k] · W[k, j] + b[j]) with k < 16. -/
theorem ref_embedEdge (x1 : (⟨S1000000x16, .f32⟩ : BufTy).Contents (Elt Ideal)) (x6 : (⟨S16x64, .f32⟩ : BufTy).Contents (Elt Ideal)) (x7 : (⟨S64, .f32⟩ : BufTy).Contents (Elt Ideal)) (p : Fin 1000000) (j : Fin 64) :
    val_main_v9 (F := Ideal) x1 x6 x7 (ix2 p j) = embedEdgeAt x1 x6 x7 p j := by
  rw [val_main_v9_apply, val_main_call1_v5_apply, val_main_call1_v4_apply, val_main_call1_cst_0_apply,
    val_main_call1_v3_apply, val_main_call1_v2_apply, val_main_call1_cst_apply, val_main_call1_v1_apply,
    val_main_call1_v0_apply, val_main_v8_apply, val_main_v5_apply, val_main_v7_apply, val_main_v6_apply]
  have el : ∀ k : Fin 16, lidx_main_v5 (ix2 p j) k = ix2 p k := fun k =>
    funext fun a => Fin.ext (by match a with | ⟨0, _⟩ => rfl | ⟨1, _⟩ => rfl)
  have er : ∀ k : Fin 16, ridx_main_v5 (ix2 p j) k = ix2 k j := fun k =>
    funext fun a => Fin.ext (by match a with | ⟨0, _⟩ => rfl | ⟨1, _⟩ => rfl)
  have eb : idx_main_v6 (idx_main_v7 (ix2 p j)) = ix1 j :=
    funext fun a => Fin.ext (by match a with | ⟨0, _⟩ => rfl)
  simp only [el, er, eb]
  exact host_swish _

/-! ## The edge update -/

/-- The reference's edge update is the specification's, with the two gathered arrays (receiver rows, sender rows) left
    as they are: entry (p, q) is swish of the 192-term contraction of the row [g | R | S] with the weights, plus the
    bias; the contraction splits into its three runs of 64, each reading one piece of the concatenation. -/
theorem ref_edgeUpdate (x0 : (⟨S50000x32, .f32⟩ : BufTy).Contents (Elt Ideal)) (x1 : (⟨S1000000x16, .f32⟩ : BufTy).Contents (Elt Ideal)) (x2 : (⟨S1000000, .i32⟩ : BufTy).Contents (Elt Ideal)) (x3 : (⟨S1000000, .i32⟩ : BufTy).Contents (Elt Ideal)) (x4 : (⟨S32x64, .f32⟩ : BufTy).Contents (Elt Ideal)) (x5 : (⟨S64, .f32⟩ : BufTy).Contents (Elt Ideal)) (x6 : (⟨S16x64, .f32⟩ : BufTy).Contents (Elt Ideal)) (x7 : (⟨S64, .f32⟩ : BufTy).Contents (Elt Ideal)) (x8 : (⟨S192x64, .f32⟩ : BufTy).Contents (Elt Ideal)) (x9 : (⟨S64, .f32⟩ : BufTy).Contents (Elt Ideal)) :
    val_main_v29 (F := Ideal) x0 x1 x2 x3 x4 x5 x6 x7 x8 x9
      = edgeUpdate x1 (val_main_v16 (F := Ideal) x0 x3 x4 x5) (val_main_v23 (F := Ideal) x0 x2 x4 x5) x6 x7 x8 x9 := by
  funext i
  obtain ⟨p, q, rfl⟩ : ∃ (p : Fin 1000000) (q : Fin 64), i = ix2 p q := ⟨i 0, i 1, eq_ix2 i⟩
  rw [val_main_v29_apply, val_main_call2_v5_apply, val_main_call2_v4_apply, val_main_call2_cst_0_apply,
    val_main_call2_v3_apply, val_main_call2_v2_apply, val_main_call2_cst_apply, val_main_call2_v1_apply,
    val_main_call2_v0_apply, val_main_v28_apply, val_main_v25_apply, val_main_v27_apply, val_main_v26_apply]
  have el : ∀ k : Fin 192, lidx_main_v25 (ix2 p q) k = ix2 p k := fun k =>
    funext fun a => Fin.ext (by match a with | ⟨0, _⟩ => rfl | ⟨1, _⟩ => rfl)
  have er : ∀ k : Fin 192, ridx_main_v25 (ix2 p q) k = ix2 k q := fun k =>
    funext fun a => Fin.ext (by match a with | ⟨0, _⟩ => rfl | ⟨1, _⟩ => rfl)
  have eb : idx_main_v26 (idx_main_v27 (ix2 p q)) = ix1 q :=
    funext fun a => Fin.ext (by match a with | ⟨0, _⟩ => rfl)
  simp only [el, er, eb]
  refine (host_swish _).trans ?_
  rw [edgeUpdate_ix2]
  unfold edgeUpdateAt
  refine congrArg swish (congrArg (· + x9 (ix1 q)) ?_)
  refine (sum192 _).trans ?_
  unfold val_main_v24
  refine congrArg₂ (· + ·) (congrArg₂ (· + ·) ?_ ?_) ?_
  · exact Finset.sum_congr rfl fun k _ => congrArg (· * x8 (ix2 (row192 0 (by omega) k) q))
      ((concat_run0 _ _ _ _ p k).trans (ref_embedEdge x1 x6 x7 p k))
  · exact Finset.sum_congr rfl fun k _ => congrArg (· * x8 (ix2 (row192 64 (by omega) k) q)) (concat_run1 _ _ _ _ p k)
  · exact Finset.sum_congr rfl fun k _ => congrArg (· * x8 (ix2 (row192 128 (by omega) k) q)) (concat_run2 _ _ _ _ p k)

end Cert.Net.RefE

end
-- ==== Proof.Bridge.lean ====
/-
  The two programs compute one function, when every sender index is in range.

  Both programs embed the nodes, select a receiver row and a sender row of the embedding for every edge, update the
  edges, sum the updated edge rows into their receiver rows, update the nodes, and join the node features to the
  result. They differ in one place: where an edge's index, wrapped by 50000 if negative, is outside [0, 49999], the
  kernel program's row selection gives a row of zeros and the reference's gather gives the row at the clamped index.
  For the sender rows the precondition rules that out. For the receiver rows nothing needs ruling out: an edge whose
  receiver index is outside [0, 50000) is dropped by the sum into receiver rows in both programs, and inside that range
  the two selections agree, so the sums are equal although the updated edge rows need not be.
-/
import proofs.«420068_j49409303773498_2_alg».proof.Proof.KernelValue
import proofs.«420068_j49409303773498_2_alg».proof.Proof.RowFacts
import proofs.«420068_j49409303773498_2_alg».proof.Proof.RefNode
import proofs.«420068_j49409303773498_2_alg».proof.Proof.RefEdge
import proofs.«420068_j49409303773498_2_alg».proof.Proof.RefRead

set_option maxRecDepth 16384

noncomputable section

namespace Cert.Net.Bridge

open Cert.KernelIdeal Idealize.ShloMosaic Idealize.ShloMosaic.ValueIdx Cert.Net.KFold Cert.Net.Rows Cert.Net.KValue

/-- The aggregated messages agree: the kernel program's, over its own row selections, and the reference's, over its
    gathers. -/
theorem aggregated_eq (x0 : (⟨S50000x32, .f32⟩ : BufTy).Contents (Elt Ideal)) (x1 : (⟨S1000000x16, .f32⟩ : BufTy).Contents (Elt Ideal)) (x2 x3 : (⟨S1000000, .i32⟩ : BufTy).Contents (Elt Ideal)) (x4 : (⟨S32x64, .f32⟩ : BufTy).Contents (Elt Ideal)) (x5 : (⟨S64, .f32⟩ : BufTy).Contents (Elt Ideal)) (x6 : (⟨S16x64, .f32⟩ : BufTy).Contents (Elt Ideal)) (x7 : (⟨S64, .f32⟩ : BufTy).Contents (Elt Ideal)) (x8 : (⟨S192x64, .f32⟩ : BufTy).Contents (Elt Ideal)) (x9 : (⟨S64, .f32⟩ : BufTy).Contents (Elt Ideal)) (x10 : (⟨S128x64, .f32⟩ : BufTy).Contents (Elt Ideal)) (x11 : (⟨S64, .f32⟩ : BufTy).Contents (Elt Ideal))
    (hs : ∀ e : Fin 1000000, 0 ≤ (x2 (ix1 e)).toInt ∧ (x2 (ix1 e)).toInt < 50000) :
    scatterRows (F := Ideal) x3
        (Cert.Net.edgeUpdate x1 (takeFill (F := Ideal) (Cert.Net.embedNode x0 x4 x5) x3)
          (takeFill (F := Ideal) (Cert.Net.embedNode x0 x4 x5) x2) x6 x7 x8 x9)
      = Cert.ReferenceIdeal.ReadP.val_main_v32 (F := Ideal) x0 x1 x2 x3 x4 x5 x6 x7 x8 x9 := by
  unfold Cert.ReferenceIdeal.ReadP.val_main_v32
  rw [Cert.Net.RefE.ref_edgeUpdate]
  refine (scatterRows_congr x3 _ _ (fun j r0 r1 => ?_)).trans rfl
  obtain ⟨e, k, rfl⟩ : ∃ (e : Fin 1000000) (k : Fin 64), j = ix2 e k := ⟨j 0, j 1, eq_ix2 j⟩
  rw [Cert.Net.edgeUpdate_ix2, Cert.Net.edgeUpdate_ix2]
  refine Cert.Net.edgeUpdateAt_congr _ _ _ _ _ _ _ _ _ e k (fun k' => ?_) (fun k' => ?_)
  · rw [takeFill_of_inRange _ x3 e k' r0 r1]
    unfold Cert.ReferenceIdeal.ReadP.val_main_v16
    rw [Cert.Net.RefD.ref_embedNode]
    rfl
  · rw [takeFill_of_inRange _ x2 e k' (hs e).1 (hs e).2]
    unfold Cert.ReferenceIdeal.ReadP.val_main_v23
    rw [Cert.Net.RefD.ref_embedNode]
    rfl

/-- The kernel program's function of the arguments is the reference's. -/
theorem kernel_eq_reference (x0 : (⟨S50000x32, .f32⟩ : BufTy).Contents (Elt Ideal)) (x1 : (⟨S1000000x16, .f32⟩ : BufTy).Contents (Elt Ideal)) (x2 x3 : (⟨S1000000, .i32⟩ : BufTy).Contents (Elt Ideal)) (x4 : (⟨S32x64, .f32⟩ : BufTy).Contents (Elt Ideal)) (x5 : (⟨S64, .f32⟩ : BufTy).Contents (Elt Ideal)) (x6 : (⟨S16x64, .f32⟩ : BufTy).Contents (Elt Ideal)) (x7 : (⟨S64, .f32⟩ : BufTy).Contents (Elt Ideal)) (x8 : (⟨S192x64, .f32⟩ : BufTy).Contents (Elt Ideal)) (x9 : (⟨S64, .f32⟩ : BufTy).Contents (Elt Ideal)) (x10 : (⟨S128x64, .f32⟩ : BufTy).Contents (Elt Ideal)) (x11 : (⟨S64, .f32⟩ : BufTy).Contents (Elt Ideal))
    (hs : ∀ e : Fin 1000000, 0 ≤ (x2 (ix1 e)).toInt ∧ (x2 (ix1 e)).toInt < 50000) :
    kernelOut x0 x1 x2 x3 x4 x5 x6 x7 x8 x9 x10 x11
      = Cert.ReferenceIdeal.ReadP.val_main_v39 (F := Ideal) x0 x1 x2 x3 x4 x5 x6 x7 x8 x9 x10 x11 := by
  unfold kernelOut Cert.ReferenceIdeal.ReadP.val_main_v39
  rw [Cert.Net.RefD.ref_nodeUpdate, Cert.Net.RefD.ref_embedNode, aggregated_eq x0 x1 x2 x3 x4 x5 x6 x7 x8 x9 x10 x11 hs]
  rfl

end Cert.Net.Bridge

end
-- ==== Proof.lean ====
/-
  One message-passing step of a graph network, a Pallas kernel program against its jnp reference, over the extended
  reals: the kernel program and the reference compute the same 50000 × 96 array from the same twelve arguments.

  The step. With X the 50000 × 32 node features, Ed the 1000000 × 16 edge features, snd and rcv the edges' sender and
  receiver indices, and swish x = x · 1 / (1 + e^(-x)):
    H = swish (X · Wn + bn)                         the node embedding, 50000 × 64
    G = swish (Ed · Wm + bm)                        the edge embedding, 1000000 × 64
    U = swish ([G | H[rcv] | H[snd]] · We + be)     the updated edges, 1000000 × 64
    A[n] = Σ over edges e with rcv e = n of U[e]    the aggregated messages, 50000 × 64
    V = swish ([A | H] · Wu + bu)                   the updated nodes, 50000 × 64
  and the result is [X | V]. The kernel program computes H, U and V in three kernels tiled over rows (matrix products
  on operands narrowed to bf16, which at the extended reals is no change; the 192-row and 128-row weights used as
  their 64-row slices, the products added up) and does the row selections and the sum into receiver rows with host
  operations; the reference is the formula above with host operations throughout. Splitting a sum over 192 or 128
  columns into runs of 64 regroups a sum on the extended reals, where addition is commutative and associative; no
  other law is used, and finiteness of the inputs is not used at all.

  The one difference is in the row selections. The kernel program replaces by zeros a row whose index, wrapped by
  50000 when negative, is outside [0, 49999]; the reference's gather reads the row at the clamped index instead. So
  the statement carries, beside finiteness, the precondition that every sender index lies in [0, 50000), the range
  in which the reference's own indexing H[snd] is defined; there the two selections agree. The receiver indices need
  no such condition: an edge whose receiver index is outside [0, 50000) is dropped by the sum into receiver rows in
  both programs, so its updated row, which may differ between the two, reaches neither result.

  The frames of the two kernel programs are the generated frame certificates; the reference's frame is its run with the
  result dropped. The ideal pass's ledger is empty.
-/
import proofs.«420068_j49409303773498_2_alg».proof.Defs
import proofs.«420068_j49409303773498_2_alg».proof.Proof.Gen.Kernel
import proofs.«420068_j49409303773498_2_alg».proof.Proof.Gen.Kernel.Skeleton
import proofs.«420068_j49409303773498_2_alg».proof.Proof.Gen.Kernel.Launch
import proofs.«420068_j49409303773498_2_alg».proof.Proof.Gen.Kernel.Points
import proofs.«420068_j49409303773498_2_alg».proof.Proof.Gen.Kernel.Frame
import proofs.«420068_j49409303773498_2_alg».proof.Proof.Gen.KernelIdeal
import proofs.«420068_j49409303773498_2_alg».proof.Proof.Gen.KernelIdeal.Skeleton
import proofs.«420068_j49409303773498_2_alg».proof.Proof.Gen.KernelIdeal.Launch
import proofs.«420068_j49409303773498_2_alg».proof.Proof.Gen.KernelIdeal.Points
import proofs.«420068_j49409303773498_2_alg».proof.Proof.Gen.KernelIdeal.Frame
import proofs.«420068_j49409303773498_2_alg».proof.Proof.Gen.ReferenceIdeal
import proofs.«420068_j49409303773498_2_alg».proof.Proof.Gen.Pre_finite_inputs
import proofs.«420068_j49409303773498_2_alg».proof.Proof.RefOps
import proofs.«420068_j49409303773498_2_alg».proof.Proof.RefRead
import proofs.«420068_j49409303773498_2_alg».proof.Proof.RefRun
import proofs.«420068_j49409303773498_2_alg».proof.Proof.KernelRun
import proofs.«420068_j49409303773498_2_alg».proof.Proof.KernelValue
import proofs.«420068_j49409303773498_2_alg».proof.Proof.PreFacts
import proofs.«420068_j49409303773498_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates, without a fault, with its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.Net.RefRun.run (F := Ideal) m ρ)

/-- The ideal pass rewrote nothing. -/
theorem preserves : Cert.preserves_Kernel_KernelIdeal := trivial

/-- From memories that agree on the arguments both idealized programs end with the same result array: the kernel
    program's result buffer holds its function of the arguments, the reference's holds the reference's, and under the
    precondition (every sender index in [0, 50000)) the two functions agree. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v8),
    Cert.KernelIdeal.Gen.run_result m ρ, ?_⟩
  refine (θ_run Cert.ReferenceIdeal.defs _ _).mono (fun _ h c => ⟨(h c).1.trans ?_, (h c).2⟩)
    (Cert.Net.RefRun.run (F := Ideal) m' ρ')
  obtain ⟨a0, a1, a2, a3, a4, a5, a6, a7, a8, a9, a10, a11⟩ := hagree c
  show _ = Cert.KernelIdeal.Gen.W7 (F := Ideal) m ρ c (Proc.devRef .tc Cert.KernelIdeal.main_v8)
  rw [Cert.Net.KValue.result_eq, a0, a1, a2, a3, a4, a5, a6, a7, a8, a9, a10, a11]
  exact (Cert.Net.Bridge.kernel_eq_reference _ _ _ _ _ _ _ _ _ _ _ _
    (Cert.Net.PreFacts.senders_inRange _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
